-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_4800000" .f32 0x345FB23B#32 ((1 / 4800000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x100000x3 : Shape := ⟨3, ![16, 100000, 3]⟩
abbrev S100000x9 : Shape := ⟨2, ![100000, 9]⟩
abbrev S100000 : Shape := ⟨1, ![100000]⟩
abbrev S_ : Shape := ⟨0, ![]⟩

class Facts : Prop where
  bcast_S_S16x100000x3 : S_.BroadcastsInDim S16x100000x3 (![] : Fin 0 → Fin S16x100000x3.rank)
  reducesTo_S16x100000x3_S_d0_1_2 : S16x100000x3.ReducesTo [0, 1, 2] S_
  h_S_ : 0 < S_.numel
  bcast_S_S100000 : S_.BroadcastsInDim S100000 (![] : Fin 0 → Fin S100000.rank)
  reducesTo_S100000_S_d0 : S100000.ReducesTo [0] S_
  bcast_S_S100000x9 : S_.BroadcastsInDim S100000x9 (![] : Fin 0 → Fin S100000x9.rank)
  reducesTo_S100000x9_S_d0_1 : S100000x9.ReducesTo [0, 1] S_

variable [Facts]

def fn_part1 {F : FTy → Type} [FloatOps F] (main_v13 : IVec S_ 1) (main_v15 : IVec S100000x9 1) (main_c_5 : IVec S_ 1) : IVec S_ 1 :=
  let main_v16 : IVec S_ 1 := (fun x v => Host.reduce IntOp.andi x v reducesTo_S100000x9_S_d0_1 h_S_) main_v15 main_c_5
  let main_v17 : IVec S_ 1 := andi main_v13 main_v16
  main_v17

def fn {F : FTy → Type} [FloatOps F] (main_arg0 : FVec F S16x100000x3 .f32) (main_arg1 : FVec F S16x100000x3 .f32) (main_arg2 : IVec S100000x9 32) (main_arg3 : FVec F S100000 .f32) : IVec S_ 1 :=
  let main_v0 : FVec F S16x100000x3 .f32 := Host.absf main_arg0
  let main_cst : FVec F S_ .f32 := constant S_ .f32 0x7F800000#32
  let main_v1 : FVec F S16x100000x3 .f32 := broadcastInDim S16x100000x3 ![] bcast_S_S16x100000x3 main_cst
  let main_v2 : IVec S16x100000x3 1 := cmpf .olt main_v0 main_v1
  let main_c : IVec S_ 1 := constantI S_ 1 1#1
  let main_v3 : IVec S_ 1 := (fun x v => Host.reduce IntOp.andi x v reducesTo_S16x100000x3_S_d0_1_2 h_S_) main_v2 main_c
  let main_v4 : FVec F S16x100000x3 .f32 := Host.absf main_arg1
  let main_cst_0 : FVec F S_ .f32 := constant S_ .f32 0x7F800000#32
  let main_v5 : FVec F S16x100000x3 .f32 := broadcastInDim S16x100000x3 ![] bcast_S_S16x100000x3 main_cst_0
  let main_v6 : IVec S16x100000x3 1 := cmpf .olt main_v4 main_v5
  let main_c_1 : IVec S_ 1 := constantI S_ 1 1#1
  let main_v7 : IVec S_ 1 := (fun x v => Host.reduce IntOp.andi x v reducesTo_S16x100000x3_S_d0_1_2 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_c_4 : IVec S_ 32 := constantI S_ 32 0#32
  let main_v14 : IVec S100000x9 32 := broadcastInDim S100000x9 ![] bcast_S_S100000x9 main_c_4
  let main_v15 : IVec S100000x9 1 := cmpi .sge main_arg2 main_v14
  let main_c_5 : IVec S_ 1 := constantI S_ 1 1#1
  fn_part1 (F := F) main_v13 main_v15 main_c_5
-- ==== Kernel.lean ====
abbrev S16x100000x3 : Shape := ⟨3, ![16, 100000, 3]⟩
abbrev S100000x9 : Shape := ⟨2, ![100000, 9]⟩
abbrev S100000 : Shape := ⟨1, ![100000]⟩
abbrev S100000x16x3 : Shape := ⟨3, ![100000, 16, 3]⟩
abbrev S100000x48 : Shape := ⟨2, ![100000, 48]⟩
abbrev S100000x1 : Shape := ⟨2, ![100000, 1]⟩
abbrev S_ : Shape := ⟨0, ![]⟩
abbrev S1 : Shape := ⟨1, ![1]⟩
abbrev S1x1 : Shape := ⟨2, ![1, 1]⟩
abbrev S2x1x1 : Shape := ⟨3, ![2, 1, 1]⟩
abbrev S5000x48 : Shape := ⟨2, ![5000, 48]⟩
abbrev S1x1x1 : Shape := ⟨3, ![1, 1, 1]⟩
abbrev S5000 : Shape := ⟨1, ![5000]⟩
abbrev S5000x1 : Shape := ⟨2, ![5000, 1]⟩

abbrev nBuf : Space → Nat
  | .hbm => 248
  | .vmem => 7
  | .smem => 0
  | _ => 0

abbrev hbmTy0_0 (i : Nat) : BufTy := match i % 128 with
  | 0 => ⟨S16x100000x3, .f32⟩
  | 1 => ⟨S16x100000x3, .f32⟩
  | 2 => ⟨S100000x9, .i32⟩
  | 3 => ⟨S100000, .f32⟩
  | 4 => ⟨S16x100000x3, .f32⟩
  | 5 => ⟨S100000x16x3, .f32⟩
  | 6 => ⟨S100000x48, .f32⟩
  | 7 => ⟨S100000x1, .i32⟩
  | 8 => ⟨S100000, .i32⟩
  | 9 => ⟨S_, .i32⟩
  | 10 => ⟨S100000, .i32⟩
  | 11 => ⟨S100000, .i1⟩
  | 12 => ⟨S_, .i32⟩
  | 13 => ⟨S100000, .i32⟩
  | 14 => ⟨S100000, .i32⟩
  | 15 => ⟨S100000, .i32⟩
  | 16 => ⟨S100000x1, .i32⟩
  | 17 => ⟨S1, .i32⟩
  | 18 => ⟨S_, .i32⟩
  | 19 => ⟨S100000x1, .i32⟩
  | 20 => ⟨S100000x1, .i1⟩
  | 21 => ⟨S1x1, .i32⟩
  | 22 => ⟨S100000x1, .i32⟩
  | 23 => ⟨S100000x1, .i1⟩
  | 24 => ⟨S100000x1, .i1⟩
  | 25 => ⟨S_, .i1⟩
  | 26 => ⟨S100000, .i1⟩
  | 27 => ⟨S100000x48, .f32⟩
  | 28 => ⟨S100000x48, .i1⟩
  | 29 => ⟨S_, .f32⟩
  | 30 => ⟨S100000x48, .f32⟩
  | 31 => ⟨S100000x48, .f32⟩
  | 32 => ⟨S100000x1, .i32⟩
  | 33 => ⟨S100000, .i32⟩
  | 34 => ⟨S_, .i32⟩
  | 35 => ⟨S100000, .i32⟩
  | 36 => ⟨S100000, .i1⟩
  | 37 => ⟨S_, .i32⟩
  | 38 => ⟨S100000, .i32⟩
  | 39 => ⟨S100000, .i32⟩
  | 40 => ⟨S100000, .i32⟩
  | 41 => ⟨S100000x1, .i32⟩
  | 42 => ⟨S1, .i32⟩
  | 43 => ⟨S_, .i32⟩
  | 44 => ⟨S100000x1, .i32⟩
  | 45 => ⟨S100000x1, .i1⟩
  | 46 => ⟨S1x1, .i32⟩
  | 47 => ⟨S100000x1, .i32⟩
  | 48 => ⟨S100000x1, .i1⟩
  | 49 => ⟨S100000x1, .i1⟩
  | 50 => ⟨S_, .i1⟩
  | 51 => ⟨S100000, .i1⟩
  | 52 => ⟨S100000x48, .f32⟩
  | 53 => ⟨S100000x48, .i1⟩
  | 54 => ⟨S_, .f32⟩
  | 55 => ⟨S100000x48, .f32⟩
  | 56 => ⟨S100000x48, .f32⟩
  | 57 => ⟨S100000x1, .i32⟩
  | 58 => ⟨S100000, .i32⟩
  | 59 => ⟨S_, .i32⟩
  | 60 => ⟨S100000, .i32⟩
  | 61 => ⟨S100000, .i1⟩
  | 62 => ⟨S_, .i32⟩
  | 63 => ⟨S100000, .i32⟩
  | 64 => ⟨S100000, .i32⟩
  | 65 => ⟨S100000, .i32⟩
  | 66 => ⟨S100000x1, .i32⟩
  | 67 => ⟨S1, .i32⟩
  | 68 => ⟨S_, .i32⟩
  | 69 => ⟨S100000x1, .i32⟩
  | 70 => ⟨S100000x1, .i1⟩
  | 71 => ⟨S1x1, .i32⟩
  | 72 => ⟨S100000x1, .i32⟩
  | 73 => ⟨S100000x1, .i1⟩
  | 74 => ⟨S100000x1, .i1⟩
  | 75 => ⟨S_, .i1⟩
  | 76 => ⟨S100000, .i1⟩
  | 77 => ⟨S100000x48, .f32⟩
  | 78 => ⟨S100000x48, .i1⟩
  | 79 => ⟨S_, .f32⟩
  | 80 => ⟨S100000x48, .f32⟩
  | 81 => ⟨S100000x48, .f32⟩
  | 82 => ⟨S100000x1, .i32⟩
  | 83 => ⟨S100000, .i32⟩
  | 84 => ⟨S_, .i32⟩
  | 85 => ⟨S100000, .i32⟩
  | 86 => ⟨S100000, .i1⟩
  | 87 => ⟨S_, .i32⟩
  | 88 => ⟨S100000, .i32⟩
  | 89 => ⟨S100000, .i32⟩
  | 90 => ⟨S100000, .i32⟩
  | 91 => ⟨S100000x1, .i32⟩
  | 92 => ⟨S1, .i32⟩
  | 93 => ⟨S_, .i32⟩
  | 94 => ⟨S100000x1, .i32⟩
  | 95 => ⟨S100000x1, .i1⟩
  | 96 => ⟨S1x1, .i32⟩
  | 97 => ⟨S100000x1, .i32⟩
  | 98 => ⟨S100000x1, .i1⟩
  | 99 => ⟨S100000x1, .i1⟩
  | 100 => ⟨S_, .i1⟩
  | 101 => ⟨S100000, .i1⟩
  | 102 => ⟨S100000x48, .f32⟩
  | 103 => ⟨S100000x48, .i1⟩
  | 104 => ⟨S_, .f32⟩
  | 105 => ⟨S100000x48, .f32⟩
  | 106 => ⟨S100000x48, .f32⟩
  | 107 => ⟨S100000x1, .i32⟩
  | 108 => ⟨S100000, .i32⟩
  | 109 => ⟨S_, .i32⟩
  | 110 => ⟨S100000, .i32⟩
  | 111 => ⟨S100000, .i1⟩
  | 112 => ⟨S_, .i32⟩
  | 113 => ⟨S100000, .i32⟩
  | 114 => ⟨S100000, .i32⟩
  | 115 => ⟨S100000, .i32⟩
  | 116 => ⟨S100000x1, .i32⟩
  | 117 => ⟨S1, .i32⟩
  | 118 => ⟨S_, .i32⟩
  | 119 => ⟨S100000x1, .i32⟩
  | 120 => ⟨S100000x1, .i1⟩
  | 121 => ⟨S1x1, .i32⟩
  | 122 => ⟨S100000x1, .i32⟩
  | 123 => ⟨S100000x1, .i1⟩
  | 124 => ⟨S100000x1, .i1⟩
  | 125 => ⟨S_, .i1⟩
  | 126 => ⟨S100000, .i1⟩
  | 127 => ⟨S100000x48, .f32⟩
  | _ => ⟨S16x100000x3, .f32⟩

abbrev hbmTy0_1 (i : Nat) : BufTy := match i % 128 with
  | 0 => ⟨S100000x48, .i1⟩
  | 1 => ⟨S_, .f32⟩
  | 2 => ⟨S100000x48, .f32⟩
  | 3 => ⟨S100000x48, .f32⟩
  | 4 => ⟨S100000x1, .i32⟩
  | 5 => ⟨S100000, .i32⟩
  | 6 => ⟨S_, .i32⟩
  | 7 => ⟨S100000, .i32⟩
  | 8 => ⟨S100000, .i1⟩
  | 9 => ⟨S_, .i32⟩
  | 10 => ⟨S100000, .i32⟩
  | 11 => ⟨S100000, .i32⟩
  | 12 => ⟨S100000, .i32⟩
  | 13 => ⟨S100000x1, .i32⟩
  | 14 => ⟨S1, .i32⟩
  | 15 => ⟨S_, .i32⟩
  | 16 => ⟨S100000x1, .i32⟩
  | 17 => ⟨S100000x1, .i1⟩
  | 18 => ⟨S1x1, .i32⟩
  | 19 => ⟨S100000x1, .i32⟩
  | 20 => ⟨S100000x1, .i1⟩
  | 21 => ⟨S100000x1, .i1⟩
  | 22 => ⟨S_, .i1⟩
  | 23 => ⟨S100000, .i1⟩
  | 24 => ⟨S100000x48, .f32⟩
  | 25 => ⟨S100000x48, .i1⟩
  | 26 => ⟨S_, .f32⟩
  | 27 => ⟨S100000x48, .f32⟩
  | 28 => ⟨S100000x48, .f32⟩
  | 29 => ⟨S100000x1, .i32⟩
  | 30 => ⟨S100000, .i32⟩
  | 31 => ⟨S_, .i32⟩
  | 32 => ⟨S100000, .i32⟩
  | 33 => ⟨S100000, .i1⟩
  | 34 => ⟨S_, .i32⟩
  | 35 => ⟨S100000, .i32⟩
  | 36 => ⟨S100000, .i32⟩
  | 37 => ⟨S100000, .i32⟩
  | 38 => ⟨S100000x1, .i32⟩
  | 39 => ⟨S1, .i32⟩
  | 40 => ⟨S_, .i32⟩
  | 41 => ⟨S100000x1, .i32⟩
  | 42 => ⟨S100000x1, .i1⟩
  | 43 => ⟨S1x1, .i32⟩
  | 44 => ⟨S100000x1, .i32⟩
  | 45 => ⟨S100000x1, .i1⟩
  | 46 => ⟨S100000x1, .i1⟩
  | 47 => ⟨S_, .i1⟩
  | 48 => ⟨S100000, .i1⟩
  | 49 => ⟨S100000x48, .f32⟩
  | 50 => ⟨S100000x48, .i1⟩
  | 51 => ⟨S_, .f32⟩
  | 52 => ⟨S100000x48, .f32⟩
  | 53 => ⟨S100000x48, .f32⟩
  | 54 => ⟨S100000x1, .i32⟩
  | 55 => ⟨S100000, .i32⟩
  | 56 => ⟨S_, .i32⟩
  | 57 => ⟨S100000, .i32⟩
  | 58 => ⟨S100000, .i1⟩
  | 59 => ⟨S_, .i32⟩
  | 60 => ⟨S100000, .i32⟩
  | 61 => ⟨S100000, .i32⟩
  | 62 => ⟨S100000, .i32⟩
  | 63 => ⟨S100000x1, .i32⟩
  | 64 => ⟨S1, .i32⟩
  | 65 => ⟨S_, .i32⟩
  | 66 => ⟨S100000x1, .i32⟩
  | 67 => ⟨S100000x1, .i1⟩
  | 68 => ⟨S1x1, .i32⟩
  | 69 => ⟨S100000x1, .i32⟩
  | 70 => ⟨S100000x1, .i1⟩
  | 71 => ⟨S100000x1, .i1⟩
  | 72 => ⟨S_, .i1⟩
  | 73 => ⟨S100000, .i1⟩
  | 74 => ⟨S100000x48, .f32⟩
  | 75 => ⟨S100000x48, .i1⟩
  | 76 => ⟨S_, .f32⟩
  | 77 => ⟨S100000x48, .f32⟩
  | 78 => ⟨S100000x48, .f32⟩
  | 79 => ⟨S100000x1, .i32⟩
  | 80 => ⟨S100000, .i32⟩
  | 81 => ⟨S_, .i32⟩
  | 82 => ⟨S100000, .i32⟩
  | 83 => ⟨S100000, .i1⟩
  | 84 => ⟨S_, .i32⟩
  | 85 => ⟨S100000, .i32⟩
  | 86 => ⟨S100000, .i32⟩
  | 87 => ⟨S100000, .i32⟩
  | 88 => ⟨S100000x1, .i32⟩
  | 89 => ⟨S1, .i32⟩
  | 90 => ⟨S_, .i32⟩
  | 91 => ⟨S100000x1, .i32⟩
  | 92 => ⟨S100000x1, .i1⟩
  | 93 => ⟨S1x1, .i32⟩
  | 94 => ⟨S100000x1, .i32⟩
  | 95 => ⟨S100000x1, .i1⟩
  | 96 => ⟨S100000x1, .i1⟩
  | 97 => ⟨S_, .i1⟩
  | 98 => ⟨S100000, .i1⟩
  | 99 => ⟨S100000x48, .f32⟩
  | 100 => ⟨S100000x48, .i1⟩
  | 101 => ⟨S_, .f32⟩
  | 102 => ⟨S100000x48, .f32⟩
  | 103 => ⟨S100000x48, .f32⟩
  | 104 => ⟨S100000x48, .f32⟩
  | 105 => ⟨S100000x48, .f32⟩
  | 106 => ⟨S100000x48, .f32⟩
  | 107 => ⟨S100000x48, .f32⟩
  | 108 => ⟨S100000x48, .f32⟩
  | 109 => ⟨S100000x48, .f32⟩
  | 110 => ⟨S100000x48, .f32⟩
  | 111 => ⟨S100000x1, .f32⟩
  | 112 => ⟨S100000x48, .f32⟩
  | 113 => ⟨S100000x48, .f32⟩
  | 114 => ⟨S2x1x1, .f32⟩
  | 115 => ⟨S1x1x1, .f32⟩
  | 116 => ⟨S_, .f32⟩
  | 117 => ⟨S1x1x1, .f32⟩
  | 118 => ⟨S_, .f32⟩
  | 119 => ⟨S_, .f32⟩
  | _ => ⟨S16x100000x3, .f32⟩

abbrev hbmTy (i : Nat) : BufTy := match i / 128 with
  | 0 => hbmTy0_0 i
  | 1 => hbmTy0_1 i
  | _ => ⟨S16x100000x3, .f32⟩

abbrev bufTy : (tb : Table) → Fin (tcTables nBuf tb) → BufTy
  | .hbm, ⟨i, _⟩ => hbmTy i
  | .local _ .vmem, ⟨0, _⟩ => ⟨S5000x48, .f32⟩
  | .local _ .vmem, ⟨1, _⟩ => ⟨S5000x48, .f32⟩
  | .local _ .vmem, ⟨2, _⟩ => ⟨S5000x48, .f32⟩
  | .local _ .vmem, ⟨3, _⟩ => ⟨S5000x48, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | _, _ => ⟨S16x100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v11 : Ref sig .tc := ⟨.hbm, 81, rfl⟩
abbrev main_v12 : Ref sig .tc := ⟨.hbm, 82, rfl⟩
abbrev main_v13 : Ref sig .tc := ⟨.hbm, 83, rfl⟩
abbrev main_call3_c : Ref sig .tc := ⟨.hbm, 84, rfl⟩
abbrev main_call3_v0 : Ref sig .tc := ⟨.hbm, 85, rfl⟩
abbrev main_call3_v1 : Ref sig .tc := ⟨.hbm, 86, rfl⟩
abbrev main_call3_c_0 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_v5 : Ref sig .tc := ⟨.hbm, 91, rfl⟩
abbrev main_call3_c_1 : Ref sig .tc := ⟨.hbm, 92, rfl⟩
abbrev main_call3_c_2 : Ref sig .tc := ⟨.hbm, 93, rfl⟩
abbrev main_call3_v6 : Ref sig .tc := ⟨.hbm, 94, rfl⟩
abbrev main_call3_v7 : Ref sig .tc := ⟨.hbm, 95, rfl⟩
abbrev main_call3_v8 : Ref sig .tc := ⟨.hbm, 96, rfl⟩
abbrev main_call3_v9 : Ref sig .tc := ⟨.hbm, 97, rfl⟩
abbrev main_call3_v10 : Ref sig .tc := ⟨.hbm, 98, rfl⟩
abbrev main_call3_v11 : Ref sig .tc := ⟨.hbm, 99, rfl⟩
abbrev main_call3_c_3 : Ref sig .tc := ⟨.hbm, 100, rfl⟩
abbrev main_call3_v12 : Ref sig .tc := ⟨.hbm, 101, rfl⟩
abbrev main_call3_v13 : Ref sig .tc := ⟨.hbm, 102, rfl⟩
abbrev main_call3_v14 : Ref sig .tc := ⟨.hbm, 103, rfl⟩
abbrev main_call3_cst : Ref sig .tc := ⟨.hbm, 104, rfl⟩
abbrev main_call3_v15 : Ref sig .tc := ⟨.hbm, 105, rfl⟩
abbrev main_v14 : Ref sig .tc := ⟨.hbm, 106, rfl⟩
abbrev main_v15 : Ref sig .tc := ⟨.hbm, 107, rfl⟩
abbrev main_v16 : Ref sig .tc := ⟨.hbm, 108, rfl⟩
abbrev main_call4_c : Ref sig .tc := ⟨.hbm, 109, rfl⟩
abbrev main_call4_v0 : Ref sig .tc := ⟨.hbm, 110, rfl⟩
abbrev main_call4_v1 : Ref sig .tc := ⟨.hbm, 111, rfl⟩
abbrev main_call4_c_0 : Ref sig .tc := ⟨.hbm, 112, rfl⟩
abbrev main_call4_v2 : Ref sig .tc := ⟨.hbm, 113, rfl⟩
abbrev main_call4_v3 : Ref sig .tc := ⟨.hbm, 114, rfl⟩
abbrev main_call4_v4 : Ref sig .tc := ⟨.hbm, 115, rfl⟩
abbrev main_call4_v5 : Ref sig .tc := ⟨.hbm, 116, rfl⟩
abbrev main_call4_c_1 : Ref sig .tc := ⟨.hbm, 117, rfl⟩
abbrev main_call4_c_2 : Ref sig .tc := ⟨.hbm, 118, rfl⟩
abbrev main_call4_v6 : Ref sig .tc := ⟨.hbm, 119, rfl⟩
abbrev main_call4_v7 : Ref sig .tc := ⟨.hbm, 120, rfl⟩
abbrev main_call4_v8 : Ref sig .tc := ⟨.hbm, 121, rfl⟩
abbrev main_call4_v9 : Ref sig .tc := ⟨.hbm, 122, rfl⟩
abbrev main_call4_v10 : Ref sig .tc := ⟨.hbm, 123, rfl⟩
abbrev main_call4_v11 : Ref sig .tc := ⟨.hbm, 124, rfl⟩
abbrev main_call4_c_3 : Ref sig .tc := ⟨.hbm, 125, rfl⟩
abbrev main_call4_v12 : Ref sig .tc := ⟨.hbm, 126, rfl⟩
abbrev main_call4_v13 : Ref sig .tc := ⟨.hbm, 127, rfl⟩
abbrev main_call4_v14 : Ref sig .tc := ⟨.hbm, 128, rfl⟩
abbrev main_call4_cst : Ref sig .tc := ⟨.hbm, 129, rfl⟩
abbrev main_call4_v15 : Ref sig .tc := ⟨.hbm, 130, rfl⟩
abbrev main_v17 : Ref sig .tc := ⟨.hbm, 131, rfl⟩
abbrev main_v18 : Ref sig .tc := ⟨.hbm, 132, rfl⟩
abbrev main_v19 : Ref sig .tc := ⟨.hbm, 133, rfl⟩
abbrev main_call5_c : Ref sig .tc := ⟨.hbm, 134, rfl⟩
abbrev main_call5_v0 : Ref sig .tc := ⟨.hbm, 135, rfl⟩
abbrev main_call5_v1 : Ref sig .tc := ⟨.hbm, 136, rfl⟩
abbrev main_call5_c_0 : Ref sig .tc := ⟨.hbm, 137, rfl⟩
abbrev main_call5_v2 : Ref sig .tc := ⟨.hbm, 138, rfl⟩
abbrev main_call5_v3 : Ref sig .tc := ⟨.hbm, 139, rfl⟩
abbrev main_call5_v4 : Ref sig .tc := ⟨.hbm, 140, rfl⟩
abbrev main_call5_v5 : Ref sig .tc := ⟨.hbm, 141, rfl⟩
abbrev main_call5_c_1 : Ref sig .tc := ⟨.hbm, 142, rfl⟩
abbrev main_call5_c_2 : Ref sig .tc := ⟨.hbm, 143, rfl⟩
abbrev main_call5_v6 : Ref sig .tc := ⟨.hbm, 144, rfl⟩
abbrev main_call5_v7 : Ref sig .tc := ⟨.hbm, 145, rfl⟩
abbrev main_call5_v8 : Ref sig .tc := ⟨.hbm, 146, rfl⟩
abbrev main_call5_v9 : Ref sig .tc := ⟨.hbm, 147, rfl⟩
abbrev main_call5_v10 : Ref sig .tc := ⟨.hbm, 148, rfl⟩
abbrev main_call5_v11 : Ref sig .tc := ⟨.hbm, 149, rfl⟩
abbrev main_call5_c_3 : Ref sig .tc := ⟨.hbm, 150, rfl⟩
abbrev main_call5_v12 : Ref sig .tc := ⟨.hbm, 151, rfl⟩
abbrev main_call5_v13 : Ref sig .tc := ⟨.hbm, 152, rfl⟩
abbrev main_call5_v14 : Ref sig .tc := ⟨.hbm, 153, rfl⟩
abbrev main_call5_cst : Ref sig .tc := ⟨.hbm, 154, rfl⟩
abbrev main_call5_v15 : Ref sig .tc := ⟨.hbm, 155, rfl⟩
abbrev main_v20 : Ref sig .tc := ⟨.hbm, 156, rfl⟩
abbrev main_v21 : Ref sig .tc := ⟨.hbm, 157, rfl⟩
abbrev main_v22 : Ref sig .tc := ⟨.hbm, 158, rfl⟩
abbrev main_call6_c : Ref sig .tc := ⟨.hbm, 159, rfl⟩
abbrev main_call6_v0 : Ref sig .tc := ⟨.hbm, 160, rfl⟩
abbrev main_call6_v1 : Ref sig .tc := ⟨.hbm, 161, rfl⟩
abbrev main_call6_c_0 : Ref sig .tc := ⟨.hbm, 162, rfl⟩
abbrev main_call6_v2 : Ref sig .tc := ⟨.hbm, 163, rfl⟩
abbrev main_call6_v3 : Ref sig .tc := ⟨.hbm, 164, rfl⟩
abbrev main_call6_v4 : Ref sig .tc := ⟨.hbm, 165, rfl⟩
abbrev main_call6_v5 : Ref sig .tc := ⟨.hbm, 166, rfl⟩
abbrev main_call6_c_1 : Ref sig .tc := ⟨.hbm, 167, rfl⟩
abbrev main_call6_c_2 : Ref sig .tc := ⟨.hbm, 168, rfl⟩
abbrev main_call6_v6 : Ref sig .tc := ⟨.hbm, 169, rfl⟩
abbrev main_call6_v7 : Ref sig .tc := ⟨.hbm, 170, rfl⟩
abbrev main_call6_v8 : Ref sig .tc := ⟨.hbm, 171, rfl⟩
abbrev main_call6_v9 : Ref sig .tc := ⟨.hbm, 172, rfl⟩
abbrev main_call6_v10 : Ref sig .tc := ⟨.hbm, 173, rfl⟩
abbrev main_call6_v11 : Ref sig .tc := ⟨.hbm, 174, rfl⟩
abbrev main_call6_c_3 : Ref sig .tc := ⟨.hbm, 175, rfl⟩
abbrev main_call6_v12 : Ref sig .tc := ⟨.hbm, 176, rfl⟩
abbrev main_call6_v13 : Ref sig .tc := ⟨.hbm, 177, rfl⟩
abbrev main_call6_v14 : Ref sig .tc := ⟨.hbm, 178, rfl⟩
abbrev main_call6_cst : Ref sig .tc := ⟨.hbm, 179, rfl⟩
abbrev main_call6_v15 : Ref sig .tc := ⟨.hbm, 180, rfl⟩
abbrev main_v23 : Ref sig .tc := ⟨.hbm, 181, rfl⟩
abbrev main_v24 : Ref sig .tc := ⟨.hbm, 182, rfl⟩
abbrev main_v25 : Ref sig .tc := ⟨.hbm, 183, rfl⟩
abbrev main_call7_c : Ref sig .tc := ⟨.hbm, 184, rfl⟩
abbrev main_call7_v0 : Ref sig .tc := ⟨.hbm, 185, rfl⟩
abbrev main_call7_v1 : Ref sig .tc := ⟨.hbm, 186, rfl⟩
abbrev main_call7_c_0 : Ref sig .tc := ⟨.hbm, 187, rfl⟩
abbrev main_call7_v2 : Ref sig .tc := ⟨.hbm, 188, rfl⟩
abbrev main_call7_v3 : Ref sig .tc := ⟨.hbm, 189, rfl⟩
abbrev main_call7_v4 : Ref sig .tc := ⟨.hbm, 190, rfl⟩
abbrev main_call7_v5 : Ref sig .tc := ⟨.hbm, 191, rfl⟩
abbrev main_call7_c_1 : Ref sig .tc := ⟨.hbm, 192, rfl⟩
abbrev main_call7_c_2 : Ref sig .tc := ⟨.hbm, 193, rfl⟩
abbrev main_call7_v6 : Ref sig .tc := ⟨.hbm, 194, rfl⟩
abbrev main_call7_v7 : Ref sig .tc := ⟨.hbm, 195, rfl⟩
abbrev main_call7_v8 : Ref sig .tc := ⟨.hbm, 196, rfl⟩
abbrev main_call7_v9 : Ref sig .tc := ⟨.hbm, 197, rfl⟩
abbrev main_call7_v10 : Ref sig .tc := ⟨.hbm, 198, rfl⟩
abbrev main_call7_v11 : Ref sig .tc := ⟨.hbm, 199, rfl⟩
abbrev main_call7_c_3 : Ref sig .tc := ⟨.hbm, 200, rfl⟩
abbrev main_call7_v12 : Ref sig .tc := ⟨.hbm, 201, rfl⟩
abbrev main_call7_v13 : Ref sig .tc := ⟨.hbm, 202, rfl⟩
abbrev main_call7_v14 : Ref sig .tc := ⟨.hbm, 203, rfl⟩
abbrev main_call7_cst : Ref sig .tc := ⟨.hbm, 204, rfl⟩
abbrev main_call7_v15 : Ref sig .tc := ⟨.hbm, 205, rfl⟩
abbrev main_v26 : Ref sig .tc := ⟨.hbm, 206, rfl⟩
abbrev main_v27 : Ref sig .tc := ⟨.hbm, 207, rfl⟩
abbrev main_v28 : Ref sig .tc := ⟨.hbm, 208, rfl⟩
abbrev main_call8_c : Ref sig .tc := ⟨.hbm, 209, rfl⟩
abbrev main_call8_v0 : Ref sig .tc := ⟨.hbm, 210, rfl⟩
abbrev main_call8_v1 : Ref sig .tc := ⟨.hbm, 211, rfl⟩
abbrev main_call8_c_0 : Ref sig .tc := ⟨.hbm, 212, rfl⟩
abbrev main_call8_v2 : Ref sig .tc := ⟨.hbm, 213, rfl⟩
abbrev main_call8_v3 : Ref sig .tc := ⟨.hbm, 214, rfl⟩
abbrev main_call8_v4 : Ref sig .tc := ⟨.hbm, 215, rfl⟩
abbrev main_call8_v5 : Ref sig .tc := ⟨.hbm, 216, rfl⟩
abbrev main_call8_c_1 : Ref sig .tc := ⟨.hbm, 217, rfl⟩
abbrev main_call8_c_2 : Ref sig .tc := ⟨.hbm, 218, rfl⟩
abbrev main_call8_v6 : Ref sig .tc := ⟨.hbm, 219, rfl⟩
abbrev main_call8_v7 : Ref sig .tc := ⟨.hbm, 220, rfl⟩
abbrev main_call8_v8 : Ref sig .tc := ⟨.hbm, 221, rfl⟩
abbrev main_call8_v9 : Ref sig .tc := ⟨.hbm, 222, rfl⟩
abbrev main_call8_v10 : Ref sig .tc := ⟨.hbm, 223, rfl⟩
abbrev main_call8_v11 : Ref sig .tc := ⟨.hbm, 224, rfl⟩
abbrev main_call8_c_3 : Ref sig .tc := ⟨.hbm, 225, rfl⟩
abbrev main_call8_v12 : Ref sig .tc := ⟨.hbm, 226, rfl⟩
abbrev main_call8_v13 : Ref sig .tc := ⟨.hbm, 227, rfl⟩
abbrev main_call8_v14 : Ref sig .tc := ⟨.hbm, 228, rfl⟩
abbrev main_call8_cst : Ref sig .tc := ⟨.hbm, 229, rfl⟩
abbrev main_call8_v15 : Ref sig .tc := ⟨.hbm, 230, rfl⟩
abbrev main_v29 : Ref sig .tc := ⟨.hbm, 231, rfl⟩
abbrev main_v30 : Ref sig .tc := ⟨.hbm, 232, rfl⟩
abbrev main_v31 : Ref sig .tc := ⟨.hbm, 233, rfl⟩
abbrev main_v32 : Ref sig .tc := ⟨.hbm, 234, rfl⟩
abbrev main_v33 : Ref sig .tc := ⟨.hbm, 235, rfl⟩
abbrev main_v34 : Ref sig .tc := ⟨.hbm, 236, rfl⟩
abbrev main_v35 : Ref sig .tc := ⟨.hbm, 237, rfl⟩
abbrev main_v36 : Ref sig .tc := ⟨.hbm, 238, rfl⟩
abbrev main_v37 : Ref sig .tc := ⟨.hbm, 239, rfl⟩
abbrev main_v38 : Ref sig .tc := ⟨.hbm, 240, rfl⟩
abbrev main_v39 : Ref sig .tc := ⟨.hbm, 241, rfl⟩
abbrev main_v40 : Ref sig .tc := ⟨.hbm, 242, rfl⟩
abbrev main_v41 : Ref sig .tc := ⟨.hbm, 243, rfl⟩
abbrev main_v42 : Ref sig .tc := ⟨.hbm, 244, rfl⟩
abbrev main_v43 : Ref sig .tc := ⟨.hbm, 245, rfl⟩
abbrev main_v44 : Ref sig .tc := ⟨.hbm, 246, rfl⟩
abbrev main_v45 : Ref sig .tc := ⟨.hbm, 247, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 10], ![false, false]⟩

def k0_cond2 (i : grid0.Coords) : BitVec 1 :=
  let arg1 : BitVec 32 := BitVec.ofNat 32 (i 1).val
  let c9_i32 : BitVec 32 := 9#32
  let v19 : BitVec 1 := Scalar.cmpi .eq arg1 c9_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S16x100000x3_S100000x16x3_1_0_2 : S16x100000x3.Transposes [1, 0, 2] S100000x16x3
  shapeCasts_S100000x16x3_S100000x48 : S100000x16x3.ShapeCasts S100000x48
  slices_S100000x9_S100000x1_0_0 : S100000x9.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x48_0 : S100000.BroadcastsInDim S100000x48 (![0] : Fin 1 → Fin S100000x48.rank)
  bcast_S_S100000x48 : S_.BroadcastsInDim S100000x48 (![] : Fin 0 → Fin S100000x48.rank)
  slices_S100000x9_S100000x1_0_1 : S100000x9.Slices ![0, 1] S100000x1
  slices_S100000x9_S100000x1_0_2 : S100000x9.Slices ![0, 2] S100000x1
  slices_S100000x9_S100000x1_0_3 : S100000x9.Slices ![0, 3] S100000x1
  slices_S100000x9_S100000x1_0_4 : S100000x9.Slices ![0, 4] S100000x1
  slices_S100000x9_S100000x1_0_5 : S100000x9.Slices ![0, 5] S100000x1
  slices_S100000x9_S100000x1_0_6 : S100000x9.Slices ![0, 6] S100000x1
  slices_S100000x9_S100000x1_0_7 : S100000x9.Slices ![0, 7] S100000x1
  slices_S100000x9_S100000x1_0_8 : S100000x9.Slices ![0, 8] S100000x1
  bcast_S100000x1_S100000x48_0_1 : S100000x1.BroadcastsInDim S100000x48 (![0, 1] : Fin 2 → Fin S100000x48.rank)
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S5000x48_S5000x48_0_0 : ∀ a, (![0, 0] : Fin 2 → Nat) a + S5000x48.size a ≤ S5000x48.size a
  h_S5000x48 : 0 < S5000x48.numel
  shapeCasts_S5000x48_S5000x48 : S5000x48.ShapeCasts S5000x48
  reduces_S5000x48_S5000 : S5000x48.Reduces [1] S5000
  shapeCasts_S5000_S5000x1 : S5000.ShapeCasts S5000x1
  reduces_S5000x1_S1 : S5000x1.Reduces [0] S1
  shapeCasts_S1_S1x1 : S1.ShapeCasts S1x1
  shapeCasts_S1x1_S1x1x1 : S1x1.ShapeCasts S1x1x1
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  gather_S100000x48_S100000x1_S100000x48_1_0_n_n_0_1_148_wf : GatherDims.WF S100000x48 S100000x1 S100000x48 [1] [0] [] [0] [] 1 ![1, 48]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x48.size a ≤ S100000x48.size a
  hwx0_0 : ∀ i : grid0.Coords, EltTy.bits .f32 = 32 ∨ (Rect.block (s := S100000x48) S5000x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x48.size a ≤ S100000x48.size a
  hwx0_1 : ∀ i : grid0.Coords, EltTy.bits .f32 = 32 ∨ (Rect.block (s := S100000x48) S5000x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

def gather_S100000x48_S100000x1_S100000x48_1_0_n_n_0_1_148 : GatherDims S100000x48 S100000x1 S100000x48 where
  offsetDims := [1]
  collapsedSliceDims := [0]
  operandBatchingDims := []
  startIndicesBatchingDims := []
  startIndexMap := [0]
  indexVectorDim := 1
  sliceSizes := ![1, 48]
  wf := gather_S100000x48_S100000x1_S100000x48_1_0_n_n_0_1_148_wf

abbrev win0_0 : Pipeline.Window sig grid0 :=
  Pipeline.Window.ofSpec (Memref.whole main_v39) S5000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S5000x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x100000x3 : Shape := ⟨3, ![16, 100000, 3]⟩
abbrev S100000x9 : Shape := ⟨2, ![100000, 9]⟩
abbrev S100000 : Shape := ⟨1, ![100000]⟩
abbrev S_ : Shape := ⟨0, ![]⟩
abbrev S16x1x3 : Shape := ⟨3, ![16, 1, 3]⟩
abbrev S16x100001x3 : Shape := ⟨3, ![16, 100001, 3]⟩
abbrev S100000x9x1 : Shape := ⟨3, ![100000, 9, 1]⟩
abbrev S16x100000x9x3 : Shape := ⟨4, ![16, 100000, 9, 3]⟩
abbrev S16x100000x1x3 : Shape := ⟨4, ![16, 100000, 1, 3]⟩
abbrev S1x100000x1 : Shape := ⟨3, ![1, 100000, 1]⟩
abbrev S16x100000x8x3 : Shape := ⟨4, ![16, 100000, 8, 3]⟩

abbrev nBuf : Space → Nat
  | .hbm => 52
  | .vmem => 0
  | .smem => 0
  | _ => 0

abbrev bufTy : (tb : Table) → Fin (tcTables nBuf tb) → BufTy
  | .hbm, ⟨0, _⟩ => ⟨S16x100000x3, .f32⟩
  | .hbm, ⟨1, _⟩ => ⟨S16x100000x3, .f32⟩
  | .hbm, ⟨2, _⟩ => ⟨S100000x9, .i32⟩
  | .hbm, ⟨3, _⟩ => ⟨S100000, .f32⟩
  | .hbm, ⟨4, _⟩ => ⟨S_, .f32⟩
  | .hbm, ⟨5, _⟩ => ⟨S16x1x3, .f32⟩
  | .hbm, ⟨6, _⟩ => ⟨S16x100001x3, .f32⟩
  | .hbm, ⟨7, _⟩ => ⟨S_, .i32⟩
  | .hbm, ⟨8, _⟩ => ⟨S100000x9, .i32⟩
  | .hbm, ⟨9, _⟩ => ⟨S100000x9, .i1⟩
  | .hbm, ⟨10, _⟩ => ⟨S_, .i32⟩
  | .hbm, ⟨11, _⟩ => ⟨S100000x9, .i32⟩
  | .hbm, ⟨12, _⟩ => ⟨S100000x9, .i32⟩
  | .hbm, ⟨13, _⟩ => ⟨S100000x9, .i32⟩
  | .hbm, ⟨14, _⟩ => ⟨S100000x9x1, .i32⟩
  | .hbm, ⟨15, _⟩ => ⟨S16x100000x9x3, .f32⟩
  | .hbm, ⟨16, _⟩ => ⟨S16x100000x1x3, .f32⟩
  | .hbm, ⟨17, _⟩ => ⟨S16x100000x3, .f32⟩
  | .hbm, ⟨18, _⟩ => ⟨S1x100000x1, .f32⟩
  | .hbm, ⟨19, _⟩ => ⟨S16x100000x3, .f32⟩
  | .hbm, ⟨20, _⟩ => ⟨S16x100000x3, .f32⟩
  | .hbm, ⟨21, _⟩ => ⟨S16x100000x8x3, .f32⟩
  | .hbm, ⟨22, _⟩ => ⟨S_, .f32⟩
  | .hbm, ⟨23, _⟩ => ⟨S16x100000x3, .f32⟩
  | .hbm, ⟨24, _⟩ => ⟨S16x100000x3, .f32⟩
  | .hbm, ⟨25, _⟩ => ⟨S_, .f32⟩
  | .hbm, ⟨26, _⟩ => ⟨S16x1x3, .f32⟩
  | .hbm, ⟨27, _⟩ => ⟨S16x100001x3, .f32⟩
  | .hbm, ⟨28, _⟩ => ⟨S_, .i32⟩
  | .hbm, ⟨29, _⟩ => ⟨S100000x9, .i32⟩
  | .hbm, ⟨30, _⟩ => ⟨S100000x9, .i1⟩
  | .hbm, ⟨31, _⟩ => ⟨S_, .i32⟩
  | .hbm, ⟨32, _⟩ => ⟨S100000x9, .i32⟩
  | .hbm, ⟨33, _⟩ => ⟨S100000x9, .i32⟩
  | .hbm, ⟨34, _⟩ => ⟨S100000x9, .i32⟩
  | .hbm, ⟨35, _⟩ => ⟨S100000x9x1, .i32⟩
  | .hbm, ⟨36, _⟩ => ⟨S16x100000x9x3, .f32⟩
  | .hbm, ⟨37, _⟩ => ⟨S16x100000x1x3, .f32⟩
  | .hbm, ⟨38, _⟩ => ⟨S16x100000x3, .f32⟩
  | .hbm, ⟨39, _⟩ => ⟨S1x100000x1, .f32⟩
  | .hbm, ⟨40, _⟩ => ⟨S16x100000x3, .f32⟩
  | .hbm, ⟨41, _⟩ => ⟨S16x100000x3, .f32⟩
  | .hbm, ⟨42, _⟩ => ⟨S16x100000x8x3, .f32⟩
  | .hbm, ⟨43, _⟩ => ⟨S_, .f32⟩
  | .hbm, ⟨44, _⟩ => ⟨S16x100000x3, .f32⟩
  | .hbm, ⟨45, _⟩ => ⟨S16x100000x3, .f32⟩
  | .hbm, ⟨46, _⟩ => ⟨S16x100000x3, .f32⟩
  | .hbm, ⟨47, _⟩ => ⟨S16x100000x3, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S16x100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩

abbrev nD : Nat := 1
abbrev τ : Topo := Topo.v7x

variable {F : FTy → Type} [FloatOps F]

class Facts₀ : Prop where
  bcast_S_S16x1x3 : S_.BroadcastsInDim S16x1x3 (![] : Fin 0 → Fin S16x1x3.rank)
  concatenates_S16x100000x3_S16x1x3_S16x100001x3_d1 : Shape.Concatenates [S16x100000x3, S16x1x3] S16x100001x3 1
  bcast_S_S100000x9 : S_.BroadcastsInDim S100000x9 (![] : Fin 0 → Fin S100000x9.rank)
  bcast_S100000x9_S100000x9x1_0_1 : S100000x9.BroadcastsInDim S100000x9x1 (![0, 1] : Fin 2 → Fin S100000x9x1.rank)
  slices_S16x100000x9x3_S16x100000x1x3_0_0_0_0 : S16x100000x9x3.Slices ![0, 0, 0, 0] S16x100000x1x3
  shapeCasts_S16x100000x1x3_S16x100000x3 : S16x100000x1x3.ShapeCasts S16x100000x3
  bcast_S100000_S1x100000x1_1 : S100000.BroadcastsInDim S1x100000x1 (![1] : Fin 1 → Fin S1x100000x1.rank)
  bcast_S1x100000x1_S16x100000x3_0_1_2 : S1x100000x1.BroadcastsInDim S16x100000x3 (![0, 1, 2] : Fin 3 → Fin S16x100000x3.rank)
  slices_S16x100000x9x3_S16x100000x8x3_0_0_1_0 : S16x100000x9x3.Slices ![0, 0, 1, 0] S16x100000x8x3
  reducesTo_S16x100000x8x3_S16x100000x3_d2 : S16x100000x8x3.ReducesTo [2] S16x100000x3
  h_S_ : 0 < S_.numel
  reducesTo_S16x100000x3_S_d0_1_2 : S16x100000x3.ReducesTo [0, 1, 2] S_
  gather_S16x100001x3_S100000x9x1_S16x100000x9x3_03_1_n_n_1_2_1613_wf : GatherDims.WF S16x100001x3 S100000x9x1 S16x100000x9x3 [0, 3] [1] [] [1] [] 2 ![16, 1, 3]

variable [Facts₀]

def gather_S16x100001x3_S100000x9x1_S16x100000x9x3_03_1_n_n_1_2_1613 : GatherDims S16x100001x3 S100000x9x1 S16x100000x9x3 where
  offsetDims := [0, 3]
  collapsedSliceDims := [1]
  operandBatchingDims := []
  startIndicesBatchingDims := []
  startIndexMap := [1]
  indexVectorDim := 2
  sliceSizes := ![16, 1, 3]
  wf := gather_S16x100001x3_S100000x9x1_S16x100000x9x3_03_1_n_n_1_2_1613_wf

class Facts : Prop extends Facts₀ where

variable [Facts]
-- ==== Proof.PreRead.lean ====
/-
  What the precondition says of the four argument arrays, read back from its printed form.

  The predicate is a conjunction of four `all`s: every entry of the two clouds and of the degree array is below
  `+∞` in absolute value, and every entry of the neighbour table is at least zero as a signed integer. An extended
  real whose absolute value `max x (−x)` is below `+∞` is neither infinity, so it is a real number.
-/
import proofs.«416947_j29197187678935_3_alg».proof.Pre_finite_inputs
import Idealize.ShloMosaic.Lib.ReduceAll
import Idealize.ShloMosaic.Lib.ValueIdx
import Idealize.ShloMosaic.PureOps.Ideal.Laws

noncomputable section

namespace Cert.PreRead

open Idealize.ShloMosaic Idealize.ShloMosaic.ValueIdx Cert.Pre_finite_inputs

/-- An extended real whose absolute value compares below the word of `+∞` is a real number. -/
theorem real_of_abs_lt_inf (x : EReal)
    (h : FloatOps.cmpf (F := Ideal) (φ := .f32) .olt (FloatOps.hostAbsf x) (Ideal.ofBits .f32 0x7F800000#32) = 1#1) :
    ∃ r : ℝ, x = r := by
  have htop : Ideal.ofBits .f32 0x7F800000#32 = (⊤ : EReal) := by simp [Ideal.ofBits, Ideal.ieee]
  rw [htop] at h
  have key : ∀ b : Bool, BitVec.ofBool b = 1#1 → b = true := by decide
  have h' : max x (-x) < ⊤ := by
    have := h
    simp only [Ideal.cmpf_def, Ideal.hostAbsf_def, Ideal.absf_def, Ideal.cmp] at this
    simpa using key _ this
  induction x using EReal.rec with
  | bot => simp at h'
  | coe r => exact ⟨r, rfl⟩
  | top => simp at h'

instance : Subsingleton S_.Idx := ⟨fun a b => funext fun d => d.elim0⟩

variable [Cert.Pre_finite_inputs.Facts]

/-- THE PRECONDITION READ BACK: the clouds and the degrees are real at every index, the table non-negative. -/
theorem of_pre (a0 a1 : FVec Ideal S16x100000x3 .f32) (a2 : IVec S100000x9 32) (a3 : FVec Ideal S100000 .f32)
    (h : fn (F := Ideal) a0 a1 a2 a3 = fun _ => 1#1) :
    (∀ i, ∃ r : ℝ, a0 i = r) ∧ (∀ i, ∃ r : ℝ, a1 i = r) ∧ (∀ i, ∃ r : ℝ, a3 i = r) ∧ (∀ i, 0 ≤ (a2 i).toInt) := by
  have h0 := congrFun h ix0
  dsimp only [fn, fn_part1] at h0
  obtain ⟨h13, h16⟩ := IntOp.andi_eq_one.1 h0
  obtain ⟨h8, h12⟩ := IntOp.andi_eq_one.1 h13
  obtain ⟨h3, h7⟩ := IntOp.andi_eq_one.1 h8
  refine ⟨fun i => ?_, fun i => ?_, fun i => ?_, fun i => ?_⟩
  · exact real_of_abs_lt_inf _ (Host.reduce_andi_all _ _ _ _ _ h3 i)
  · exact real_of_abs_lt_inf _ (Host.reduce_andi_all _ _ _ _ _ h7 i)
  · exact real_of_abs_lt_inf _ (Host.reduce_andi_all _ _ _ _ _ h12 i)
  · have := Host.reduce_andi_all _ _ _ _ _ h16 i
    have h2 := IntOp.cmpi_sge.1 this
    have hz : (broadcastInDim S100000x9 ![] Facts.bcast_S_S100000x9 (constantI S_ 32 0#32) : IVec S100000x9 32) i = 0#32 := rfl
    rw [hz] at h2
    simpa using h2

end Cert.PreRead

end
-- ==== Proof.LibSums.lean ====
/-
  Sums regrouped.

  A sum over a range cut into equal blocks is the double sum over blocks and places inside a block; a sum over a range
  whose tail terms vanish is the sum over the head; a sum over the indices of a rank-1, rank-2 or rank-3 array is the
  iterated sum over the coordinates. All of it holds in any additive commutative monoid, so also for the extended reals,
  whose addition is commutative and associative even at the infinities. The last part is about the extended reals alone:
  negation passes through a sum of non-negative terms, the embedding of the reals passes through a sum, and a few facts
  on the sign and the finiteness of sums and squares.
-/
import Mathlib.Algebra.BigOperators.Fin
import Mathlib.Algebra.BigOperators.Group.Finset.Basic
import Mathlib.Algebra.Order.BigOperators.Group.Finset
import Mathlib.Logic.Equiv.Fin.Basic
import Mathlib.Data.EReal.Operations
import Idealize.ShloMosaic.PureOps.Ideal
import Idealize.ShloMosaic.Lib.ValueIdx

open scoped BigOperators

namespace Cert.LibSums

open Idealize.ShloMosaic

section Monoid

variable {M : Type*} [AddCommMonoid M]

/-! ## Blocks and tails -/

/-- `B` blocks of `R` consecutive places: the double sum over (block, place in the block) is the sum over all `B * R` places. -/
theorem sum_blocks (B R : ℕ) (f : ℕ → M) :
    ∑ t : Fin B, ∑ r : Fin R, f (t.val * R + r.val) = ∑ i : Fin (B * R), f i.val := by
  rw [← Equiv.sum_comp (finProdFinEquiv (m := B) (n := R)) (fun i => f i.val), Fintype.sum_prod_type]
  refine Finset.sum_congr rfl fun t _ => Finset.sum_congr rfl fun r _ => ?_
  show f (t.val * R + r.val) = f (r.val + R * t.val)
  rw [Nat.mul_comm, Nat.add_comm]

/-- Five blocks of 3000. -/
theorem sum_blocks_5_3000 (f : ℕ → M) :
    ∑ t : Fin 5, ∑ r : Fin 3000, f (t.val * 3000 + r.val) = ∑ i : Fin 15000, f i.val := sum_blocks 5 3000 f

/-- Twenty-five blocks of 4000. -/
theorem sum_blocks_25_4000 (f : ℕ → M) :
    ∑ t : Fin 25, ∑ r : Fin 4000, f (t.val * 4000 + r.val) = ∑ i : Fin 100000, f i.val := sum_blocks 25 4000 f

/-- A hundred and fifty-eight blocks of 64. -/
theorem sum_blocks_158_64 (f : ℕ → M) :
    ∑ t : Fin 158, ∑ r : Fin 64, f (t.val * 64 + r.val) = ∑ i : Fin 10112, f i.val := sum_blocks 158 64 f

/-- A sum over the first `N` naturals whose terms from `n` on vanish is the sum over the first `n`. -/
theorem sum_fin_le (n N : ℕ) (h : n ≤ N) (f : ℕ → M) (hf : ∀ i, n ≤ i → i < N → f i = 0) :
    ∑ i : Fin N, f i.val = ∑ i : Fin n, f i.val := by
  rw [Fin.sum_univ_eq_sum_range f N, Fin.sum_univ_eq_sum_range f n]
  refine (Finset.sum_subset (Finset.range_subset_range.2 h) fun i hi hni => ?_).symm
  exact hf i (Nat.le_of_not_lt fun hlt => hni (Finset.mem_range.2 hlt)) (Finset.mem_range.1 hi)

/-- Two indices at once: rows in `B` blocks of `R`, columns up to `C`, the function vanishing as soon as the row
    reaches `n` or the column reaches `m`: the triple sum is the double sum over `n` rows and `m` columns. -/
theorem sum_blocks_tail2 (B R C n m : ℕ) (hn : n ≤ B * R) (hm : m ≤ C) (f : ℕ → ℕ → M)
    (hf : ∀ r c, n ≤ r ∨ m ≤ c → f r c = 0) :
    ∑ t : Fin B, ∑ r : Fin R, ∑ c : Fin C, f (t.val * R + r.val) c.val = ∑ r : Fin n, ∑ c : Fin m, f r.val c.val := by
  rw [sum_blocks B R (fun i => ∑ c : Fin C, f i c.val)]
  rw [sum_fin_le n (B * R) hn (fun i => ∑ c : Fin C, f i c.val)
    (fun i hi _ => Finset.sum_eq_zero fun c _ => hf i c.val (Or.inl hi))]
  refine Finset.sum_congr rfl fun r _ => ?_
  exact sum_fin_le m C hm (f r.val) (fun c hc _ => hf r.val c (Or.inr hc))

/-- Rows in 158 blocks of 64 against 10112 columns, of which the first 10000 rows and columns count. -/
theorem sum_158_64_10112 (f : ℕ → ℕ → M) (hf : ∀ r c, 10000 ≤ r ∨ 10000 ≤ c → f r c = 0) :
    ∑ t : Fin 158, ∑ r : Fin 64, ∑ c : Fin 10112, f (t.val * 64 + r.val) c.val
      = ∑ r : Fin 10000, ∑ c : Fin 10000, f r.val c.val :=
  sum_blocks_tail2 158 64 10112 10000 10000 (by decide) (by decide) f hf

end Monoid

section Idx

variable {M : Type*} [AddCommMonoid M]

open Idealize.ShloMosaic.ValueIdx

/-! ## Sums over an array's indices, by coordinates (rank 2 is the library's `ValueIdx.sum_idx2`) -/

/-- A rank-1 index set is its one coordinate's range. -/
def idxEquiv1 {n : ℕ} : (⟨1, ![n]⟩ : Shape).Idx ≃ Fin n where
  toFun i := i 0
  invFun a := ix1 a
  left_inv i := (eq_ix1 i).symm
  right_inv _ := rfl

/-- A sum over the indices of a rank-1 array is the sum over its one coordinate. -/
theorem sum_idx1 {n : ℕ} (g : (⟨1, ![n]⟩ : Shape).Idx → M) : ∑ j, g j = ∑ p : Fin n, g (ix1 p) := by
  rw [← Equiv.sum_comp (idxEquiv1 (n := n)).symm g]
  rfl

/-- A rank-3 index set is the product of its three coordinate ranges. -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {n0 n1 n2 : ℕ} (g : (⟨3, ![n0, n1, n2]⟩ : Shape).Idx → M) :
    ∑ j, g j = ∑ p : Fin n0, ∑ q : Fin n1, ∑ r : Fin n2, g (ix3 p q r) := by
  rw [← Equiv.sum_comp (idxEquiv3 (n0 := n0) (n1 := n1) (n2 := n2)).symm g, Fintype.sum_prod_type]
  refine Finset.sum_congr rfl fun p _ => ?_
  rw [Fintype.sum_prod_type]
  rfl

/-- A sum over the indices of a rank-2 array is the double sum over the coordinates (the library's `sum_idx2`, restated
    with the index type written out). -/
theorem sum_idx2' {a b : ℕ} (g : (⟨2, ![a, b]⟩ : Shape).Idx → M) :
    ∑ j : (⟨2, ![a, b]⟩ : Shape).Idx, g j = ∑ p : Fin a, ∑ q : Fin b, g (ix2 p q) := sum_idx2 g

end Idx

/-! ## The extended reals -/

section EReal

variable {ι : Type*}

/-- The embedding of the reals passes through a finite sum. -/
theorem sum_coe (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- A sum none of whose terms is `⊥` is not `⊥`. -/
theorem sum_ne_bot (s : Finset ι) (a : ι → EReal) (h : ∀ i ∈ s, a i ≠ ⊥) : ∑ i ∈ s, a i ≠ ⊥ := by
  classical
  induction s using Finset.induction_on with
  | empty => simp
  | insert i s hi ih =>
    rw [Finset.sum_insert hi]
    exact EReal.add_ne_bot_iff.2 ⟨h i (Finset.mem_insert_self i s), ih fun j hj => h j (Finset.mem_insert_of_mem hj)⟩

/-- A sum none of whose terms is `⊤` is not `⊤` (whatever the other terms: `⊤ + ⊥ = ⊥`). -/
theorem sum_ne_top (s : Finset ι) (a : ι → EReal) (h : ∀ i ∈ s, a i ≠ ⊤) : ∑ i ∈ s, a i ≠ ⊤ := by
  classical
  induction s using Finset.induction_on with
  | empty => simp
  | insert i s hi ih =>
    rw [Finset.sum_insert hi]
    exact EReal.add_ne_top (h i (Finset.mem_insert_self i s)) (ih fun j hj => h j (Finset.mem_insert_of_mem hj))

/-- A sum of reals is not `⊥`. -/
theorem sum_coe_ne_bot (s : Finset ι) (f : ι → ℝ) : ∑ i ∈ s, ((f i : ℝ) : EReal) ≠ ⊥ :=
  sum_ne_bot s _ fun i _ => EReal.coe_ne_bot (f i)

/-- A sum of reals is not `⊤`. -/
theorem sum_coe_ne_top (s : Finset ι) (f : ι → ℝ) : ∑ i ∈ s, ((f i : ℝ) : EReal) ≠ ⊤ :=
  sum_ne_top s _ fun i _ => EReal.coe_ne_top (f i)

/-- A sum of non-negative terms is non-negative. -/
theorem sum_nonneg (s : Finset ι) (a : ι → EReal) (h : ∀ i ∈ s, 0 ≤ a i) : 0 ≤ ∑ i ∈ s, a i :=
  Finset.sum_nonneg h

/-- Each term of a sum of non-negative terms is at most the sum. -/
theorem le_sum_of_nonneg (s : Finset ι) (a : ι → EReal) (h : ∀ i ∈ s, 0 ≤ a i) {i : ι} (hi : i ∈ s) :
    a i ≤ ∑ j ∈ s, a j :=
  Finset.single_le_sum h hi

/-- A sum of non-negative terms one of which is positive is positive. -/
theorem sum_pos (s : Finset ι) (a : ι → EReal) (h : ∀ i ∈ s, 0 ≤ a i) {i : ι} (hi : i ∈ s) (hpos : 0 < a i) :
    0 < ∑ j ∈ s, a j :=
  lt_of_lt_of_le hpos (le_sum_of_nonneg s a h hi)

/-- If a sum of non-negative terms is below `⊤`, so is every term. -/
theorem lt_top_of_sum_lt_top (s : Finset ι) (a : ι → EReal) (h : ∀ i ∈ s, 0 ≤ a i) (hs : ∑ i ∈ s, a i < ⊤) :
    ∀ i ∈ s, a i < ⊤ :=
  fun _ hi => lt_of_le_of_lt (le_sum_of_nonneg s a h hi) hs

/-- Negation passes through a sum of non-negative terms: no partial sum is `⊥`, so no `⊤ + ⊥` is met. -/
theorem neg_sum_of_nonneg (s : Finset ι) (a : ι → EReal) (h : ∀ i ∈ s, 0 ≤ a i) :
    ∑ i ∈ s, -(a i) = -(∑ i ∈ s, a i) := by
  classical
  induction s using Finset.induction_on with
  | empty => simp
  | insert i s hi ih =>
    have hs : ∀ j ∈ s, 0 ≤ a j := fun j hj => h j (Finset.mem_insert_of_mem hj)
    have h1 : a i ≠ ⊥ := ne_of_gt (lt_of_lt_of_le EReal.bot_lt_zero (h i (Finset.mem_insert_self i s)))
    have h2 : ∑ j ∈ s, a j ≠ ⊥ := ne_of_gt (lt_of_lt_of_le EReal.bot_lt_zero (sum_nonneg s a hs))
    rw [Finset.sum_insert hi, Finset.sum_insert hi, ih hs, EReal.neg_add (Or.inl h1) (Or.inr h2), sub_eq_add_neg]

/-- A square is non-negative, also at the infinities (`⊥ * ⊥ = ⊤`). -/
theorem ereal_mul_self_nonneg (x : EReal) : 0 ≤ x * x := by
  induction x with
  | bot => rw [EReal.bot_mul_bot]; exact le_top
  | coe r => rw [← EReal.coe_mul]; exact EReal.coe_nonneg.2 (_root_.mul_self_nonneg r)
  | top => rw [EReal.top_mul_top]; exact le_top

/-- The square of a non-zero extended real is positive. -/
theorem ereal_mul_self_pos (x : EReal) (hx : x ≠ 0) : 0 < x * x := by
  induction x with
  | bot => rw [EReal.bot_mul_bot]; exact EReal.zero_lt_top
  | coe r =>
    rw [← EReal.coe_mul]
    exact EReal.coe_pos.2 (_root_.mul_self_pos.2 fun hr => hx (by rw [hr, EReal.coe_zero]))
  | top => rw [EReal.top_mul_top]; exact EReal.zero_lt_top

/-- A square below `⊤` is the square of a real. -/
theorem ereal_of_mul_self_lt_top (x : EReal) (h : x * x < ⊤) : x ≠ ⊥ ∧ x ≠ ⊤ := by
  refine ⟨fun hx => ?_, fun hx => ?_⟩
  · rw [hx, EReal.bot_mul_bot] at h; exact lt_irrefl _ h
  · rw [hx, EReal.top_mul_top] at h; exact lt_irrefl _ h

end EReal

end Cert.LibSums
-- ==== Proof.Spec.lean ====
/-
  The mesh-Laplacian loss as one function of the four argument arrays, and the two facts about it that join the
  two programs.

  A cloud `P` holds, for each of 16 batches and 3 coordinates, 100000 points. The neighbour table gives every point
  `n` nine slots; a slot names a point of the cloud or, from 100000 on, the padding point, which is zero. The
  Laplacian of `P` at `n` is `degree n · P[slot 0] − Σ_{j = 1..8} P[slot j]`, and the loss is the mean over all
  16 · 100000 · 3 = 4800000 entries of `|lap gt − lap pr|`.

  1. The Laplacian is linear in the cloud: on clouds and degrees that are real numbers, the Laplacian of the
     difference `gt − pr` is the difference of the two Laplacians. (On the extended reals this needs the entries to be
     real: `(x − y) · d = x · d − y · d` fails at the infinities.)
  2. The sum of the non-negative entries `|lap (gt − pr)|` over all (point, column) pairs, columns numbered
     `3 · batch + coordinate`, does not depend on the grouping: two halves of ten tiles of 5000 points by 48 columns,
     each half scaled by 1/4800000 and the two added, is the sum over 16 × 100000 × 3 scaled once. Sums on the
     extended reals regroup freely; the scaling distributes over the two halves because both are non-negative.
-/
import Idealize.ShloMosaic.PureOps.Ideal
import Idealize.ShloMosaic.Lib.ValueIdx
import proofs.«416947_j29197187678935_3_alg».proof.Proof.LibSums

noncomputable section

open scoped BigOperators

namespace Cert.MeshLoss

open Idealize.ShloMosaic Idealize.ShloMosaic.ValueIdx

/-- A cloud: batch × point × coordinate. -/
abbrev Cloud : Shape := ⟨3, ![16, 100000, 3]⟩
/-- The neighbour table: point × slot. -/
abbrev Slots : Shape := ⟨2, ![100000, 9]⟩
/-- One degree per point. -/
abbrev Degs : Shape := ⟨1, ![100000]⟩

/-- Slot `j` of point `n`, read as a signed integer and then as a natural number. -/
def slot (ids : Slots.Idx → BitVec 32) (n : Fin 100000) (j : Fin 9) : ℕ := (ids (ix2 n j)).toInt.toNat

/-- Coordinate `(b, c)` of point `k` of the cloud extended by the zero padding point: zero from 100000 on. -/
def point (P : Cloud.Idx → EReal) (k : ℕ) (b : Fin 16) (c : Fin 3) : EReal :=
  if h : k < 100000 then P (ix3 b ⟨k, h⟩ c) else 0

/-- The Laplacian of `P` at point `n`: the degree times the point in slot 0, minus the points in slots 1 to 8. -/
def lap (P : Cloud.Idx → EReal) (ids : Slots.Idx → BitVec 32) (deg : Degs.Idx → EReal)
    (n : Fin 100000) (b : Fin 16) (c : Fin 3) : EReal :=
  point P (slot ids n 0) b c * deg (ix1 n) - ∑ j : Fin 8, point P (slot ids n j.succ) b c

/-- The absolute value on the extended reals. -/
def absE (x : EReal) : EReal := max x (-x)

theorem absE_nonneg (x : EReal) : 0 ≤ absE x := by
  unfold absE
  rcases le_total 0 x with h | h
  · exact le_max_of_le_left h
  · exact le_max_of_le_right (by rw [← neg_zero]; exact EReal.neg_le_neg_iff.mpr h)

/-- The reciprocal of the number of entries. -/
def invCount : EReal := ((1 / 4800000 : ℝ) : EReal)

/-- THE LOSS: the mean of `|lap gt − lap pr|` over batches, points and coordinates. -/
def loss (gt pr : Cloud.Idx → EReal) (ids : Slots.Idx → BitVec 32) (deg : Degs.Idx → EReal) : EReal :=
  (∑ b : Fin 16, ∑ n : Fin 100000, ∑ c : Fin 3, absE (lap gt ids deg n b c - lap pr ids deg n b c)) * invCount

/-- The Laplacian with its eight neighbour terms written out, added left to right. -/
theorem lap_eight (P : Cloud.Idx → EReal) (ids : Slots.Idx → BitVec 32) (deg : Degs.Idx → EReal)
    (n : Fin 100000) (b : Fin 16) (c : Fin 3) :
    lap P ids deg n b c = point P (slot ids n 0) b c * deg (ix1 n)
      - (point P (slot ids n 1) b c + point P (slot ids n 2) b c + point P (slot ids n 3) b c
        + point P (slot ids n 4) b c + point P (slot ids n 5) b c + point P (slot ids n 6) b c
        + point P (slot ids n 7) b c + point P (slot ids n 8) b c) := by
  unfold lap
  rw [Fin.sum_univ_eight]
  rfl

/-! ## 1. The Laplacian is linear on real clouds -/

/-- `point` on a real cloud. -/
def pointR (g : Cloud.Idx → ℝ) (k : ℕ) (b : Fin 16) (c : Fin 3) : ℝ :=
  if h : k < 100000 then g (ix3 b ⟨k, h⟩ c) else 0

/-- `lap` on a real cloud with real degrees. -/
def lapR (g : Cloud.Idx → ℝ) (ids : Slots.Idx → BitVec 32) (d : Degs.Idx → ℝ) (n : Fin 100000) (b : Fin 16) (c : Fin 3) : ℝ :=
  pointR g (slot ids n 0) b c * d (ix1 n) - ∑ j : Fin 8, pointR g (slot ids n j.succ) b c

theorem point_coe (g : Cloud.Idx → ℝ) (k : ℕ) (b : Fin 16) (c : Fin 3) :
    point (fun i => ((g i : ℝ) : EReal)) k b c = ((pointR g k b c : ℝ) : EReal) := by
  unfold point pointR
  split_ifs
  · rfl
  · exact EReal.coe_zero.symm

theorem lap_coe (g : Cloud.Idx → ℝ) (ids : Slots.Idx → BitVec 32) (d : Degs.Idx → ℝ) (n : Fin 100000) (b : Fin 16) (c : Fin 3) :
    lap (fun i => ((g i : ℝ) : EReal)) ids (fun i => ((d i : ℝ) : EReal)) n b c = ((lapR g ids d n b c : ℝ) : EReal) := by
  unfold lap lapR
  simp only [point_coe]
  rw [Cert.LibSums.sum_coe, ← EReal.coe_mul, ← EReal.coe_sub]

theorem pointR_sub (g p : Cloud.Idx → ℝ) (k : ℕ) (b : Fin 16) (c : Fin 3) :
    pointR (fun i => g i - p i) k b c = pointR g k b c - pointR p k b c := by
  unfold pointR
  split_ifs
  · rfl
  · exact (sub_zero 0).symm

theorem lapR_sub (g p : Cloud.Idx → ℝ) (ids : Slots.Idx → BitVec 32) (d : Degs.Idx → ℝ) (n : Fin 100000) (b : Fin 16) (c : Fin 3) :
    lapR (fun i => g i - p i) ids d n b c = lapR g ids d n b c - lapR p ids d n b c := by
  unfold lapR
  simp only [pointR_sub, Finset.sum_sub_distrib]
  ring

/-- LINEARITY: on clouds and degrees whose entries are real numbers, the Laplacian of the difference is the
    difference of the Laplacians. -/
theorem lap_sub (gt pr : Cloud.Idx → EReal) (ids : Slots.Idx → BitVec 32) (deg : Degs.Idx → EReal)
    (hgt : ∀ i, ∃ r : ℝ, gt i = r) (hpr : ∀ i, ∃ r : ℝ, pr i = r) (hdeg : ∀ i, ∃ r : ℝ, deg i = r)
    (n : Fin 100000) (b : Fin 16) (c : Fin 3) :
    lap (fun i => gt i - pr i) ids deg n b c = lap gt ids deg n b c - lap pr ids deg n b c := by
  choose g hg using hgt
  choose p hp using hpr
  choose d hd using hdeg
  obtain rfl : gt = fun i => ((g i : ℝ) : EReal) := funext hg
  obtain rfl : pr = fun i => ((p i : ℝ) : EReal) := funext hp
  obtain rfl : deg = fun i => ((d i : ℝ) : EReal) := funext hd
  simp only [← EReal.coe_sub]
  rw [lap_coe, lap_coe, lap_coe, ← EReal.coe_sub, lapR_sub]

/-! ## 2. The entries summed tile by tile and summed batch by batch -/

/-- `|lap D|` at row `n` and column `q = 3 · batch + coordinate` of the point-major layout (zero off the array). -/
def entry (D : Cloud.Idx → EReal) (ids : Slots.Idx → BitVec 32) (deg : Degs.Idx → EReal) (n q : ℕ) : EReal :=
  if h : n < 100000 ∧ q < 48 then absE (lap D ids deg ⟨n, h.1⟩ ⟨q / 3, by omega⟩ ⟨q % 3, by omega⟩) else 0

theorem entry_nonneg (D : Cloud.Idx → EReal) (ids : Slots.Idx → BitVec 32) (deg : Degs.Idx → EReal) (n q : ℕ) :
    0 ≤ entry D ids deg n q := by
  unfold entry
  split_ifs
  · exact absE_nonneg _
  · exact le_refl _

/-- On the array, the entry is `|lap D|` at the row and at the column's batch and coordinate. -/
theorem entry_of_lt (D : Cloud.Idx → EReal) (ids : Slots.Idx → BitVec 32) (deg : Degs.Idx → EReal) (n q : ℕ)
    (hn : n < 100000) (hq : q < 48) :
    entry D ids deg n q = absE (lap D ids deg ⟨n, hn⟩ ⟨q / 3, by omega⟩ ⟨q % 3, by omega⟩) := by
  unfold entry
  rw [dif_pos ⟨hn, hq⟩]

theorem entry_at (D : Cloud.Idx → EReal) (ids : Slots.Idx → BitVec 32) (deg : Degs.Idx → EReal)
    (n : Fin 100000) (b : Fin 16) (c : Fin 3) :
    entry D ids deg n.val (b.val * 3 + c.val) = absE (lap D ids deg n b c) := by
  rw [entry_of_lt D ids deg n.val (b.val * 3 + c.val) n.isLt (by omega)]
  congr 2
  · exact Fin.ext (by show (b.val * 3 + c.val) / 3 = b.val; omega)
  · exact Fin.ext (by show (b.val * 3 + c.val) % 3 = c.val; omega)

/-- Two halves of ten tiles of 5000 rows by 48 columns, each scaled and the two added, against batch × point ×
    coordinate scaled once: any non-negative entries. -/
theorem sum_tiles (a : ℕ → ℕ → EReal) (ha : ∀ n q, 0 ≤ a n q) (κ : EReal) :
    (∑ t : Fin 10, ∑ r : Fin 5000, ∑ q : Fin 48, a (t.val * 5000 + r.val) q.val) * κ
      + (∑ t : Fin 10, ∑ r : Fin 5000, ∑ q : Fin 48, a ((10 + t.val) * 5000 + r.val) q.val) * κ
    = (∑ b : Fin 16, ∑ n : Fin 100000, ∑ c : Fin 3, a n.val (b.val * 3 + c.val)) * κ := by
  have hnn : ∀ s : ℕ, 0 ≤ ∑ t : Fin 10, ∑ r : Fin 5000, ∑ q : Fin 48, a ((s + t.val) * 5000 + r.val) q.val :=
    fun s => Finset.sum_nonneg fun t _ => Finset.sum_nonneg fun r _ => Finset.sum_nonneg fun q _ => ha _ _
  have h0 := hnn 0
  simp only [Nat.zero_add] at h0
  rw [← EReal.right_distrib_of_nonneg h0 (hnn 10)]
  refine congrArg (fun s : EReal => s * κ) ?_
  have h20 : ∑ t : Fin 20, ∑ r : Fin 5000, ∑ q : Fin 48, a (t.val * 5000 + r.val) q.val
      = ∑ t : Fin 10, ∑ r : Fin 5000, ∑ q : Fin 48, a (t.val * 5000 + r.val) q.val
        + ∑ t : Fin 10, ∑ r : Fin 5000, ∑ q : Fin 48, a ((10 + t.val) * 5000 + r.val) q.val :=
    Fin.sum_univ_add (a := 10) (b := 10) (fun t : Fin 20 => ∑ r : Fin 5000, ∑ q : Fin 48, a (t.val * 5000 + r.val) q.val)
  have hrows : ∑ t : Fin 20, ∑ r : Fin 5000, ∑ q : Fin 48, a (t.val * 5000 + r.val) q.val
      = ∑ n : Fin 100000, ∑ q : Fin 48, a n.val q.val :=
    Cert.LibSums.sum_blocks 20 5000 (fun i => ∑ q : Fin 48, a i q.val)
  have hcols : ∀ n : Fin 100000, ∑ q : Fin 48, a n.val q.val = ∑ b : Fin 16, ∑ c : Fin 3, a n.val (b.val * 3 + c.val) :=
    fun n => (Cert.LibSums.sum_blocks 16 3 (fun q => a n.val q)).symm
  calc _ = ∑ t : Fin 20, ∑ r : Fin 5000, ∑ q : Fin 48, a (t.val * 5000 + r.val) q.val := h20.symm
    _ = ∑ n : Fin 100000, ∑ q : Fin 48, a n.val q.val := hrows
    _ = ∑ n : Fin 100000, ∑ b : Fin 16, ∑ c : Fin 3, a n.val (b.val * 3 + c.val) := Finset.sum_congr rfl fun n _ => hcols n
    _ = ∑ b : Fin 16, ∑ n : Fin 100000, ∑ c : Fin 3, a n.val (b.val * 3 + c.val) := Finset.sum_comm

/-- THE TILED SUM IS THE LOSS: on real clouds and degrees, the entries `|lap (gt − pr)|` summed over two halves of ten
    tiles, each half scaled by 1/4800000, add up to the loss. -/
theorem tiles_eq_loss (gt pr : Cloud.Idx → EReal) (ids : Slots.Idx → BitVec 32) (deg : Degs.Idx → EReal)
    (hgt : ∀ i, ∃ r : ℝ, gt i = r) (hpr : ∀ i, ∃ r : ℝ, pr i = r) (hdeg : ∀ i, ∃ r : ℝ, deg i = r) :
    (∑ t : Fin 10, ∑ r : Fin 5000, ∑ q : Fin 48, entry (fun i => gt i - pr i) ids deg (t.val * 5000 + r.val) q.val) * invCount
      + (∑ t : Fin 10, ∑ r : Fin 5000, ∑ q : Fin 48, entry (fun i => gt i - pr i) ids deg ((10 + t.val) * 5000 + r.val) q.val) * invCount
    = loss gt pr ids deg := by
  rw [sum_tiles _ (entry_nonneg _ ids deg) invCount]
  unfold loss
  refine congrArg (fun s : EReal => s * invCount) ?_
  refine Finset.sum_congr rfl fun b _ => Finset.sum_congr rfl fun n _ => Finset.sum_congr rfl fun c _ => ?_
  rw [entry_at, lap_sub gt pr ids deg hgt hpr hdeg]

end Cert.MeshLoss

end
-- ==== Proof.LibGather.lean ====
/-
  `stablehlo.gather` read at an index, for the two shapes a row lookup lowers to.

  `rowsDims`: rows of a table `[N, C]` looked up by a column of start indices `[R, 1]`: result element `(r, q)` is the
  table at row `idx[r, 0]`, read as a signed integer and clamped into `[0, N − 1]`, and column `q`.

  `midDims`: the middle axis of `[B, N, C]` looked up by start indices `[R, S, 1]`: result element `(b, r, s, c)` is the
  operand at `(b, idx[r, s, 0] clamped into [0, N − 1], c)`.

  Both follow from the definition of the operand index: on the looked-up axis the clamped start index and nothing
  else (the axis is collapsed), on every other axis the result's own coordinate (an offset axis, start 0).
-/
import Idealize.ShloMosaic.PureOps.Ideal
import Idealize.ShloMosaic.Lib.ValueIdx

namespace Cert.LibGather

open Idealize.ShloMosaic Idealize.ShloMosaic.ValueIdx

variable {α : Type}

/-! ## Rows of a table -/

/-- The dimension numbers of a row lookup: operand `[N, C]`, start indices `[R, 1]`, result `[R, C]`. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section Rows

variable {N R C w : Nat}
  (wf : GatherDims.WF ⟨2, ![N, C]⟩ ⟨2, ![R, 1]⟩ ⟨2, ![R, C]⟩ [1] [0] [] [0] [] 1 ![1, C])
  (idx : IVec ⟨2, ![R, 1]⟩ w) (r : Fin R) (q : Fin C)

/-- On the looked-up axis: the start index, signed and clamped. -/
theorem rows_axis0 :
    (rowsDims N R C wf).start (ix2 r q) idx 0 + (rowsDims N R C wf).batchCoord (ix2 r q) 0
      + (rowsDims N R C wf).offCoord (ix2 r q) 0 = min (idx (ix2 r (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N R C wf).startIndexMap from List.mem_singleton.mpr rfl)]
  have hsi : (rowsDims N R C wf).siIdx (ix2 r q) ⟨List.idxOf (0 : Fin 2) (rowsDims N R C wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the column axis: the result's own column. -/
theorem rows_axis1 :
    (rowsDims N R C wf).start (ix2 r q) idx 1 + (rowsDims N R C wf).batchCoord (ix2 r q) 1
      + (rowsDims N R C wf).offCoord (ix2 r q) 1 = q.val := by
  have hs : (rowsDims N R C wf).start (ix2 r q) idx (1 : Fin 2) = 0 := by
    unfold GatherDims.start
    rw [dif_neg (show (1 : Fin 2) ∉ (rowsDims N R C wf).startIndexMap from
      fun h => Nat.one_ne_zero (congrArg Fin.val (List.mem_singleton.mp h)))]
  rw [GatherDims.batchCoord_eq_zero _ _ _ List.not_mem_nil, hs]
  simp only [Nat.add_zero, Nat.zero_add]
  rfl

/-- THE ROW LOOKUP AT `(r, q)`: the table at the row `idx[r, 0]` names, signed and clamped, and column `q`. -/
theorem gather_rows_apply (hN : 0 < N) (x : (⟨2, ![N, C]⟩ : Shape).Idx → α) :
    Host.gather (rowsDims N R C wf) x idx (ix2 r q)
      = x (ix2 ⟨min (idx (ix2 r (0 : Fin 1))).toInt.toNat (N - 1), by omega⟩ q) := by
  unfold Host.gather
  congr 1
  funext a
  refine Fin.ext ?_
  match a with
  | ⟨0, _⟩ => exact rows_axis0 wf idx r q
  | ⟨1, _⟩ => exact rows_axis1 wf idx r q

end Rows

/-! ## The middle axis of a rank-3 array -/

/-- The dimension numbers of a lookup along the middle axis: operand `[B, N, C]`, start indices `[R, S, 1]`, result
    `[B, R, S, C]`. -/
abbrev midDims (B N C R S : Nat)
    (wf : GatherDims.WF ⟨3, ![B, N, C]⟩ ⟨3, ![R, S, 1]⟩ ⟨4, ![B, R, S, C]⟩ [0, 3] [1] [] [1] [] 2 ![B, 1, C]) :
    GatherDims ⟨3, ![B, N, C]⟩ ⟨3, ![R, S, 1]⟩ ⟨4, ![B, R, S, C]⟩ where
  offsetDims := [0, 3]
  collapsedSliceDims := [1]
  operandBatchingDims := []
  startIndicesBatchingDims := []
  startIndexMap := [1]
  indexVectorDim := 2
  sliceSizes := ![B, 1, C]
  wf := wf

section Mid

variable {B N C R S w : Nat}
  (wf : GatherDims.WF ⟨3, ![B, N, C]⟩ ⟨3, ![R, S, 1]⟩ ⟨4, ![B, R, S, C]⟩ [0, 3] [1] [] [1] [] 2 ![B, 1, C])
  (idx : IVec ⟨3, ![R, S, 1]⟩ w) (b : Fin B) (r : Fin R) (s : Fin S) (c : Fin C)

/-- On the first axis: the result's own first coordinate. -/
theorem mid_axis0 :
    (midDims B N C R S wf).start (ix4 b r s c) idx 0 + (midDims B N C R S wf).batchCoord (ix4 b r s c) 0
      + (midDims B N C R S wf).offCoord (ix4 b r s c) 0 = b.val := by
  have hs : (midDims B N C R S wf).start (ix4 b r s c) idx (0 : Fin 3) = 0 := by
    unfold GatherDims.start
    rw [dif_neg (show (0 : Fin 3) ∉ (midDims B N C R S wf).startIndexMap from
      fun h => Nat.zero_ne_one (congrArg Fin.val (List.mem_singleton.mp h)))]
  rw [GatherDims.batchCoord_eq_zero _ _ _ List.not_mem_nil, hs]
  simp only [Nat.add_zero, Nat.zero_add]
  rfl

/-- On the looked-up axis: the start index, signed and clamped. -/
theorem mid_axis1 :
    (midDims B N C R S wf).start (ix4 b r s c) idx 1 + (midDims B N C R S wf).batchCoord (ix4 b r s c) 1
      + (midDims B N C R S wf).offCoord (ix4 b r s c) 1 = min (idx (ix3 r s (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 3) ∈ (midDims B N C R S wf).startIndexMap from List.mem_singleton.mpr rfl)]
  have hsi : (midDims B N C R S wf).siIdx (ix4 b r s c) ⟨List.idxOf (1 : Fin 3) (midDims B N C R S wf).startIndexMap,
      List.idxOf_lt_length_iff.2 (List.mem_singleton.mpr rfl)⟩ = ix3 r s (0 : Fin 1) := by
    funext d; refine Fin.ext ?_
    match d with
    | ⟨0, _⟩ => rfl
    | ⟨1, _⟩ => rfl
    | ⟨2, _⟩ => rfl
  rw [hsi]
  rfl

/-- On the last axis: the result's own last coordinate. -/
theorem mid_axis2 :
    (midDims B N C R S wf).start (ix4 b r s c) idx 2 + (midDims B N C R S wf).batchCoord (ix4 b r s c) 2
      + (midDims B N C R S wf).offCoord (ix4 b r s c) 2 = c.val := by
  have hs : (midDims B N C R S wf).start (ix4 b r s c) idx (2 : Fin 3) = 0 := by
    unfold GatherDims.start
    rw [dif_neg (show (2 : Fin 3) ∉ (midDims B N C R S wf).startIndexMap from
      fun h => (show (2 : ℕ) ≠ 1 by decide) (congrArg Fin.val (List.mem_singleton.mp h)))]
  rw [GatherDims.batchCoord_eq_zero _ _ _ List.not_mem_nil, hs]
  simp only [Nat.add_zero, Nat.zero_add]
  rfl

/-- THE MIDDLE-AXIS LOOKUP AT `(b, r, s, c)`: the operand at `(b, idx[r, s, 0] signed and clamped, c)`. -/
theorem gather_mid_apply (hN : 0 < N) (x : (⟨3, ![B, N, C]⟩ : Shape).Idx → α) :
    Host.gather (midDims B N C R S wf) x idx (ix4 b r s c)
      = x (ix3 b ⟨min (idx (ix3 r s (0 : Fin 1))).toInt.toNat (N - 1), by omega⟩ c) := by
  unfold Host.gather
  congr 1
  funext a
  refine Fin.ext ?_
  match a with
  | ⟨0, _⟩ => exact mid_axis0 wf idx b r s c
  | ⟨1, _⟩ => exact mid_axis1 wf idx b r s c
  | ⟨2, _⟩ => exact mid_axis2 wf idx b r s c

end Mid

end Cert.LibGather
-- ==== Proof.RefLoss.lean ====
/-
  The reference program's result is the loss.

  The reference pads each cloud with one zero point, looks the nine slots of every point up along the padded axis
  (a start index is clamped into [0, 100000], and index 100000 is the padding point), forms the Laplacian
  `slot 0 · degree − Σ slots 1..8`, and takes the mean of `|lap gt − lap pr|` over all 4800000 entries. Each stage
  is read at an index from the stage before it:

  1. the table of start indices is the neighbour table itself, because no entry is negative;
  2. the padded cloud at point `k` is the cloud's point below 100000 and zero at 100000;
  3. so a looked-up entry is `point` of the slot, the clamp changing nothing that `point` sees;
  4. the slices, the reshape, the two broadcasts of the degree and the sum over the eight neighbour slots assemble
     `lap` at (batch, point, coordinate);
  5. the second cloud's stages are the same operations;
  6. the total over all indices is the triple sum over batch, point and coordinate, and dividing by the real number
     4800000 is multiplying by its reciprocal.
-/
import proofs.«416947_j29197187678935_3_alg».proof.Proof.Gen.ReferenceIdeal.Read
import proofs.«416947_j29197187678935_3_alg».proof.Proof.Spec
import proofs.«416947_j29197187678935_3_alg».proof.Proof.LibGather

noncomputable section

open scoped BigOperators

namespace Cert.RefLoss

open Idealize.ShloMosaic Idealize.ShloMosaic.ValueIdx Cert.ReferenceIdeal Cert.ReferenceIdeal.Gen Cert.ReferenceIdeal.Read Cert.MeshLoss

/-! ## 1. The start indices are the neighbour table -/

/-- With no negative entry the wrap-around select returns the entry itself: the start index at `(n, s, 0)` is the
    table's entry at `(n, s)`. -/
theorem ids_read (x2 : IVec S100000x9 32) (hpos : ∀ i, 0 ≤ (x2 i).toInt) (n : Fin 100000) (s : Fin 9) :
    val_main_v7 (F := Ideal) x2 (ix3 n s (0 : Fin 1)) = x2 (ix2 n s) := by
  have hidx : idx_main_v7 (ix3 n s (0 : Fin 1)) = ix2 n s := by
    funext a
    match a with
    | ⟨0, _⟩ => rfl
    | ⟨1, _⟩ => rfl
  rw [val_main_v7_apply, hidx, val_main_v6_apply, val_main_v3_apply]
  have hc : IntOp.cmpi .slt (x2 (ix2 n s)) (val_main_v2 (F := Ideal) (ix2 n s)) = 0#1 := by
    refine eq_zero_of_ne_one ?_
    rw [IntOp.cmpi_slt, val_main_v2_apply, val_main_c_apply]
    have h := hpos (ix2 n s)
    have h0 : (0#32 : BitVec 32).toInt = 0 := by decide
    rw [h0]
    omega
  rw [hc, select_zero]

/-! ## 2. The padded cloud -/

/-- The zero piece of the padded cloud is zero everywhere. -/
theorem pad_zero (j : S16x1x3.Idx) : val_main_v0 (F := Ideal) j = 0 := by
  rw [val_main_v0_apply, val_main_cst_apply, Ideal.ofBits_def, Ideal.ofBits_zero_f32]

/-- The padded cloud at point `k ≤ 100000`: the cloud's own point below 100000, zero at the padding point. -/
theorem pad_read (x0 : FVec Ideal S16x100000x3 .f32) (b : Fin 16) (k : ℕ) (hk : k < 100001) (c : Fin 3) :
    val_main_v1 (F := Ideal) x0 (ix3 b (⟨k, hk⟩ : Fin 100001) c) = point x0 k b c := by
  unfold point val_main_v1
  by_cases h : k < 100000
  · rw [dif_pos h]
    exact concatenate_pair_apply_left (1 : Fin 3) x0 (val_main_v0 (F := Ideal))
      concatenates_S16x100000x3_S16x1x3_S16x100001x3_d1 (ix3 b (⟨k, hk⟩ : Fin 100001) c) rfl (ix3 b ⟨k, h⟩ c)
      (fun a => match a with
        | ⟨0, _⟩ => rfl
        | ⟨1, _⟩ => rfl
        | ⟨2, _⟩ => rfl)
  · rw [dif_neg h]
    rw [concatenate_pair_apply_right (1 : Fin 3) x0 (val_main_v0 (F := Ideal))
      concatenates_S16x100000x3_S16x1x3_S16x100001x3_d1 (ix3 b (⟨k, hk⟩ : Fin 100001) c) rfl rfl (ix3 b (0 : Fin 1) c)
      (fun a => match a with
        | ⟨0, _⟩ => fun _ => rfl
        | ⟨1, _⟩ => fun hne => absurd rfl hne
        | ⟨2, _⟩ => fun _ => rfl)
      (by show 0 + 100000 = k; omega)]
    exact pad_zero _

/-! ## 3. A looked-up entry is the slot's point -/

/-- Clamping a point number at the padding point changes nothing `point` sees: from 100000 on it is zero either way. -/
theorem point_min (P : Cloud.Idx → EReal) (k : ℕ) (b : Fin 16) (c : Fin 3) :
    point P (min k 100000) b c = point P k b c := by
  rcases Nat.lt_or_ge k 100000 with h | h
  · rw [Nat.min_eq_left (Nat.le_of_lt h)]
  · rw [Nat.min_eq_right h]
    unfold point
    rw [dif_neg (Nat.lt_irrefl _), dif_neg (Nat.not_lt.mpr h)]

/-- The lookup at `(b, n, s, c)` is coordinate `(b, c)` of the point that slot `s` of `n` names. -/
theorem gather_read (x0 : FVec Ideal S16x100000x3 .f32) (x2 : IVec S100000x9 32) (hpos : ∀ i, 0 ≤ (x2 i).toInt)
    (b : Fin 16) (n : Fin 100000) (s : Fin 9) (c : Fin 3) :
    val_main_v8 (F := Ideal) x0 x2 (ix4 b n s c) = point x0 (slot x2 n s) b c := by
  unfold val_main_v8
  show Host.gather (Cert.LibGather.midDims 16 100001 3 100000 9
    Facts₀.gather_S16x100001x3_S100000x9x1_S16x100000x9x3_03_1_n_n_1_2_1613_wf) _ _ _ = _
  rw [Cert.LibGather.gather_mid_apply _ (val_main_v7 (F := Ideal) x2) b n s c (by decide) (val_main_v1 (F := Ideal) x0),
    pad_read, ids_read x2 hpos]
  exact point_min x0 _ b c

/-! ## 4. The Laplacian's stages -/

/-- The reshape `[16, 100000, 1, 3] → [16, 100000, 3]` keeps the three coordinates and puts 0 on the unit axis. -/
theorem idx10_at (b : Fin 16) (n : Fin 100000) (c : Fin 3) :
    idx_main_v10 (ix3 b n c) = ix4 b n (0 : Fin 1) c := by
  have hb := b.isLt
  have hn := n.isLt
  have hc := c.isLt
  funext a
  refine Fin.ext ?_
  match a with
  | ⟨0, _⟩ => show ((b.val * 100000 + n.val) * 3 + c.val) / 300000 = b.val; omega
  | ⟨1, _⟩ => show ((b.val * 100000 + n.val) * 3 + c.val) / 3 % 100000 = n.val; omega
  | ⟨2, _⟩ => rfl
  | ⟨3, _⟩ => show ((b.val * 100000 + n.val) * 3 + c.val) % 3 = c.val; omega

/-- The slice of slot 0 reads the lookup at slot 0. -/
theorem idx9_at (b : Fin 16) (n : Fin 100000) (c : Fin 3) :
    idx_main_v9 (ix4 b n (0 : Fin 1) c) = ix4 b n (0 : Fin 9) c := by
  funext a
  refine Fin.ext ?_
  match a with
  | ⟨0, _⟩ => rfl
  | ⟨1, _⟩ => rfl
  | ⟨2, _⟩ => rfl
  | ⟨3, _⟩ => rfl

/-- The two broadcasts of the degrees read the degree of the point. -/
theorem idx12_at (b : Fin 16) (n : Fin 100000) (c : Fin 3) :
    idx_main_v11 (idx_main_v12 (ix3 b n c)) = ix1 n := by
  funext a
  refine Fin.ext ?_
  match a with
  | ⟨0, _⟩ => rfl

/-- Term `k` of the sum over the eight neighbour slots reads the lookup at slot `k + 1`. -/
theorem idx15_at (b : Fin 16) (n : Fin 100000) (c : Fin 3) (k : Fin 8) :
    idx_main_v14 (idx_main_v15 (ix3 b n c) k) = ix4 b n k.succ c := by
  funext a
  refine Fin.ext ?_
  match a with
  | ⟨0, _⟩ => rfl
  | ⟨1, _⟩ => rfl
  | ⟨2, _⟩ => show 1 + k.val = k.val + 1; omega
  | ⟨3, _⟩ => rfl

/-- The first cloud's last stage at `(b, n, c)` is its Laplacian there. -/
theorem lap_read (x0 : FVec Ideal S16x100000x3 .f32) (x2 : IVec S100000x9 32) (x3 : FVec Ideal S100000 .f32)
    (hpos : ∀ i, 0 ≤ (x2 i).toInt) (b : Fin 16) (n : Fin 100000) (c : Fin 3) :
    val_main_v16 (F := Ideal) x0 x2 x3 (ix3 b n c) = lap x0 x2 x3 n b c := by
  have hcenter : val_main_v10 (F := Ideal) x0 x2 (ix3 b n c) = point x0 (slot x2 n 0) b c := by
    rw [val_main_v10_apply, idx10_at, val_main_v9_apply, idx9_at, gather_read x0 x2 hpos]
  have hdeg : val_main_v12 (F := Ideal) x3 (ix3 b n c) = x3 (ix1 n) := by
    rw [val_main_v12_apply, val_main_v11_apply, idx12_at]
  have hsum : val_main_v15 (F := Ideal) x0 x2 (ix3 b n c) = ∑ k : Fin 8, point x0 (slot x2 n k.succ) b c := by
    rw [val_main_v15_apply, val_main_cst_1_apply, Ideal.ofBits_def, Ideal.ofBits_zero_f32, zero_add]
    refine Finset.sum_congr rfl fun k _ => ?_
    rw [val_main_v14_apply, idx15_at, gather_read x0 x2 hpos]
  rw [val_main_v16_apply, val_main_v13_apply, hcenter, hdeg, hsum]
  rfl

/-! ## 5. The second cloud's stages are the same operations -/

theorem second_eq_first (x1 : FVec Ideal S16x100000x3 .f32) (x2 : IVec S100000x9 32) (x3 : FVec Ideal S100000 .f32) :
    val_main_v33 (F := Ideal) x1 x2 x3 = val_main_v16 (F := Ideal) x1 x2 x3 := rfl

/-! ## 6. The mean -/

/-- The word `0x4A927C00` is the real number 4800000. -/
theorem ofBits_count : Ideal.ofBits .f32 0x4A927C00#32 = ((4800000 : ℝ) : EReal) := by
  simp [Ideal.ofBits, Ideal.ieee, -EReal.coe_mul]; norm_num

/-- One entry of the summed array: `|lap gt − lap pr|` at `(b, n, c)`. -/
theorem abs_read (x0 x1 : FVec Ideal S16x100000x3 .f32) (x2 : IVec S100000x9 32) (x3 : FVec Ideal S100000 .f32)
    (hpos : ∀ i, 0 ≤ (x2 i).toInt) (b : Fin 16) (n : Fin 100000) (c : Fin 3) :
    val_main_v35 (F := Ideal) x0 x1 x2 x3 (ix3 b n c) = absE (lap x0 x2 x3 n b c - lap x1 x2 x3 n b c) := by
  rw [val_main_v35_apply, val_main_v34_apply, second_eq_first, lap_read x0 x2 x3 hpos, lap_read x1 x2 x3 hpos]
  rfl

/-- THE REFERENCE IS THE LOSS: on a neighbour table with no negative entry, the last stage of the reference's run is
    the mesh-Laplacian loss of its four arguments. -/
theorem ref_eq_loss (x0 x1 : FVec Ideal S16x100000x3 .f32) (x2 : IVec S100000x9 32) (x3 : FVec Ideal S100000 .f32)
    (hpos : ∀ i, 0 ≤ (x2 i).toInt) (i : S_.Idx) :
    val_main_v37 (F := Ideal) x0 x1 x2 x3 i = loss x0 x1 x2 x3 := by
  rw [val_main_v37_apply, val_main_cst_7_apply, Ideal.hostDivf_def, Ideal.ofBits_def, ofBits_count,
    Ideal.div_coe (by norm_num : (4800000 : ℝ) ≠ 0)]
  unfold loss invCount
  refine congrArg (fun s : EReal => s * ((1 / 4800000 : ℝ) : EReal)) ?_
  rw [val_main_v36_apply, val_main_cst_6_apply, Ideal.ofBits_def, Ideal.ofBits_zero_f32, zero_add,
    Cert.LibSums.sum_idx3]
  refine Finset.sum_congr rfl fun b _ => Finset.sum_congr rfl fun n _ => Finset.sum_congr rfl fun c _ => ?_
  exact abs_read x0 x1 x2 x3 hpos b n c

end Cert.RefLoss

end
-- ==== Proof.KerBody.lean ====
/-
  What the kernel's body leaves behind at a grid point, as values.

  The body keeps a one-element running total in a scratch buffer. At the first point of a core's ten it resets the
  total to zero; at every point it adds the point's tile sum `Σ_r Σ_q |a[r, q] − b[r, q]|` over the 5000 × 48 blocks
  `a`, `b` of its two operands; at the last of the ten it also stores the total times the named reciprocal of the
  entry count into the core's output element. The three control cases therefore leave: (first) `0 + tile`,
  (middle) `previous + tile`, (last) `previous + tile` and, in the output, that total times the reciprocal.
  The tile sum is taken in two steps, along a row and then down the rows; read on the extended reals both are plain
  finite sums.
-/
import proofs.«416947_j29197187678935_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import Idealize.ShloMosaic.PureOps.IdealRules
import proofs.«416947_j29197187678935_3_alg».proof.Proof.Spec

noncomputable section

open scoped BigOperators
open Idealize.ShloMosaic Idealize.ShloMosaic.TcCoe Idealize.ShloMosaic.ValueIdx Idealize.SL.Sem

namespace Cert.KerBody

open Cert.KernelIdeal Cert.KernelIdeal.Gen

section Pieces

variable {F : FTy → Type} [FloatOps F] [Named F]

theorem hz3 : (![0, 0, 0] : Fin 3 → Nat) = fun _ => 0 := funext fun a => by fin_cases a <;> rfl
theorem hz2 : (![0, 0] : Fin 2 → Nat) = fun _ => 0 := funext fun a => by fin_cases a <;> rfl

/-- A middle point leaves in the scratch the previous total plus the point's tile sum. -/
theorem scratch_B (c : Dev nD) (i : grid0.Coords) (arg2 : Memref sig .tc .vmem S5000x48 .f32) (harg2 : arg2.IsWhole) (arg3 : Memref sig .tc .vmem S5000x48 .f32) (harg3 : arg3.IsWhole) (arg4 : Memref sig .tc .vmem S1x1x1 .f32) (harg4 : arg4.IsWhole) (arg5 : Memref sig .tc .vmem S1x1x1 .f32) (harg5 : arg5.IsWhole) (hc0 : ¬cond0_0 i) (hc1 : ¬cond0_1 i)
    (x0 : Vec F S5000x48 .f32) (x1 : Vec F S5000x48 .f32) (xs0 : Vec F S1x1x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz3]
  simp only [View.readAt_eq_ld, harg2.read_unread, harg3.read_unread, harg5.read_unread,
    View.ld_unit_zero (S := S5000x48) hz2, View.ld_unit_zero (S := S1x1x1) hz3]

/-- A first point resets the scratch to the zero block, reads it back and leaves zero plus the tile sum. -/
theorem scratch_A (c : Dev nD) (i : grid0.Coords) (arg2 : Memref sig .tc .vmem S5000x48 .f32) (harg2 : arg2.IsWhole) (arg3 : Memref sig .tc .vmem S5000x48 .f32) (harg3 : arg3.IsWhole) (arg4 : Memref sig .tc .vmem S1x1x1 .f32) (harg4 : arg4.IsWhole) (arg5 : Memref sig .tc .vmem S1x1x1 .f32) (harg5 : arg5.IsWhole) (hc0 : cond0_0 i) (hc1 : ¬cond0_1 i)
    (x0 : Vec F S5000x48 .f32) (x1 : Vec F S5000x48 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread,
    View.ld_unit_zero (S := S5000x48) hz2, View.ld_unit_zero (S := S1x1x1) hz3]

/-- A last point leaves in the scratch the previous total plus the tile sum, -/
theorem scratch_C (c : Dev nD) (i : grid0.Coords) (arg2 : Memref sig .tc .vmem S5000x48 .f32) (harg2 : arg2.IsWhole) (arg3 : Memref sig .tc .vmem S5000x48 .f32) (harg3 : arg3.IsWhole) (arg4 : Memref sig .tc .vmem S1x1x1 .f32) (harg4 : arg4.IsWhole) (arg5 : Memref sig .tc .vmem S1x1x1 .f32) (harg5 : arg5.IsWhole) (hc0 : ¬cond0_0 i) (hc1 : cond0_1 i)
    (x0 : Vec F S5000x48 .f32) (x1 : Vec F S5000x48 .f32) (xs0 : Vec F S1x1x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz3]
  simp only [View.readAt_eq_ld, harg2.read_unread, harg3.read_unread, harg5.read_unread,
    View.ld_unit_zero (S := S5000x48) hz2, View.ld_unit_zero (S := S1x1x1) hz3]

/-- and in the output that total, read back from the scratch, times the reciprocal of the entry count. -/
theorem out_C (c : Dev nD) (i : grid0.Coords) (arg2 : Memref sig .tc .vmem S5000x48 .f32) (harg2 : arg2.IsWhole) (arg3 : Memref sig .tc .vmem S5000x48 .f32) (harg3 : arg3.IsWhole) (arg4 : Memref sig .tc .vmem S1x1x1 .f32) (harg4 : arg4.IsWhole) (arg5 : Memref sig .tc .vmem S1x1x1 .f32) (harg5 : arg5.IsWhole) (hc0 : ¬cond0_0 i) (hc1 : cond0_1 i)
    (x0 : Vec F S5000x48 .f32) (x1 : Vec F S5000x48 .f32) (xs0 : Vec F S1x1x1 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3]
  simp only [View.readCov_unit_zero (S := S1x1x1) _ hz3, View.readAt_eq_ld, harg2.read_unread, harg3.read_unread,
    harg5.read_unread, View.ld_unit_zero (S := S5000x48) hz2, View.ld_unit_zero (S := S1x1x1) hz3]

end Pieces

/-! ## The three payloads on the extended reals, at the one index of a one-element block -/

section Values

open Cert.MeshLoss

/-- The one index of a one-element block. -/
abbrev o : S1x1x1.Idx := ix3 (0 : Fin 1) (0 : Fin 1) (0 : Fin 1)

/-- A sum along a row. -/
theorem rowSum_apply (d : FVec Ideal S5000x48 .f32) (r : Fin 5000) :
    multiReduction .add [1] S5000 d 0x00000000#32 reduces_S5000x48_S5000 (.inl rfl) rfl (ix1 r)
      = ∑ q : Fin 48, d (ix2 r q) :=
  (Ideal.multiReduction_add_single d _ reduces_S5000x48_S5000 (.inl rfl) rfl (ix1 r)).trans
    (Finset.sum_congr rfl fun q _ => congrArg d (funext fun a => Fin.ext (by
      match a with
      | ⟨0, _⟩ => rfl
      | ⟨1, _⟩ => rfl)))

/-- A sum down the rows of a one-column array. -/
theorem colSum_apply (v : FVec Ideal S5000x1 .f32) :
    multiReduction .add [0] S1 v 0x00000000#32 reduces_S5000x1_S1 (.inl rfl) rfl (ix1 (0 : Fin 1))
      = ∑ r : Fin 5000, v (ix2 r (0 : Fin 1)) :=
  (Ideal.multiReduction_add_single v _ reduces_S5000x1_S1 (.inl rfl) rfl (ix1 (0 : Fin 1))).trans
    (Finset.sum_congr rfl fun r _ => congrArg v (funext fun a => Fin.ext (by
      match a with
      | ⟨0, _⟩ => rfl
      | ⟨1, _⟩ => rfl)))

/-- THE UPDATE: the total so far plus the tile sum of the absolute differences of the two blocks. -/
theorem pay2_at (x0 x1 : Vec Ideal S5000x48 .f32) (acc : Vec Ideal S1x1x1 .f32) :
    k0_pay2 (F := Ideal) x0 x1 acc o
      = acc o + ∑ r : Fin 5000, ∑ q : Fin 48, absE (x0 (ix2 r q) - x1 (ix2 r q)) := by
  unfold k0_pay2
  simp only [shapeCast_self]
  refine congrArg (acc o + ·) ?_
  refine (shapeCast_apply _ shapeCasts_S1x1_S1x1x1 o (ix2 (0 : Fin 1) (0 : Fin 1))
    (by rw [Shape.rowMajor_val_two, Shape.rowMajor_val_three]; rfl)).trans ?_
  refine (shapeCast_apply _ shapeCasts_S1_S1x1 (ix2 (0 : Fin 1) (0 : Fin 1)) (ix1 (0 : Fin 1))
    (by rw [Shape.rowMajor_val_one, Shape.rowMajor_val_two]; rfl)).trans ?_
  refine (colSum_apply _).trans (Finset.sum_congr rfl fun r _ => ?_)
  refine (shapeCast_apply _ shapeCasts_S5000_S5000x1 (ix2 r (0 : Fin 1)) (ix1 r)
    (by rw [Shape.rowMajor_val_one, Shape.rowMajor_val_two]; show r.val = r.val * 1 + 0; omega)).trans ?_
  exact (rowSum_apply _ r).trans (Finset.sum_congr rfl fun q _ => rfl)

/-- THE RESET stores zero. -/
theorem pay1_at : k0_pay1 (F := Ideal) o = 0 := by
  unfold k0_pay1
  simp only [shapeCast_self]
  exact Ideal.ofBits_zero_f32

/-- The named reciprocal of the entry count is the rational 1/4800000. -/
theorem inv_count : Named.named (F := Ideal) Cert.KernelIdeal.κ "inv_4800000" (φ := .f32) 0x345FB23B#32 = invCount :=
  IdealRules.named_const.ideal_named_scalar _ _ _ _ rfl

/-- THE OUTPUT: the total times the reciprocal of the entry count. -/
theorem pay3_at (v : Vec Ideal S1x1x1 .f32) : k0_pay3 (F := Ideal) v o = v o * invCount := by
  unfold k0_pay3
  show v o * Named.named (F := Ideal) Cert.KernelIdeal.κ "inv_4800000" (φ := .f32) 0x345FB23B#32 = _
  rw [inv_count]

end Values

end Cert.KerBody

end
-- ==== Proof.KerHost.lean ====
/-
  The two arrays the kernel's region stages, read at an index.

  Before the region the host forms the difference cloud `gt − pr`, lays it out point-major (row `n`, column
  `3 · batch + coordinate`), looks its rows up once per neighbour slot (a slot from 100000 on reads as zero), and leaves
  two arrays of 100000 rows by 48 columns: the slot-0 rows times the degree, and the sum of the rows of slots 1 to 8.
-/
import proofs.«416947_j29197187678935_3_alg».proof.Proof.Gen.KernelIdeal.Frame
import proofs.«416947_j29197187678935_3_alg».proof.Proof.Spec
import proofs.«416947_j29197187678935_3_alg».proof.Proof.LibGather
import Idealize.ShloMosaic.Lib.StableHlo.Run
import Idealize.ShloMosaic.Lib.Pipeline.Value
import Idealize.ShloMosaic.Lib.ValueIdx
import Idealize.ShloMosaic.Lib.Affine
import Idealize.ShloMosaic.PureOps.Reduce
import Idealize.ShloMosaic.PureOps.Ideal.Laws

noncomputable section

open scoped BigOperators

namespace Cert.KerHost

open Idealize.ShloMosaic Idealize.ShloMosaic.TcCoe Idealize.ShloMosaic.ValueIdx Idealize.SL.Sem
open Cert.KernelIdeal Cert.KernelIdeal.Gen Cert.MeshLoss

/-! ## Rows of a table looked up by id, out-of-range ids reading as zero -/

/-- Negative ids moved up by the table's length. -/
def wrapIds (i : IVec S100000 32) : IVec S100000 32 :=
  select (cmpi .slt i (broadcastInDim S100000 ![] bcast_S_S100000 (constantI S_ 32 0#32)))
    (addi i (broadcastInDim S100000 ![] bcast_S_S100000 (constantI S_ 32 100000#32))) i

/-- The wrapped ids as a column of start indices. -/
def idCol (i : IVec S100000 32) : IVec S100000x1 32 :=
  broadcastInDim S100000x1 ![0] bcast_S100000_S100000x1_0 (wrapIds i)

/-- Per row: is the start index inside `[0, 99999]`. -/
def inRange (col : IVec S100000x1 32) : IVec S100000 1 :=
  Host.reduce IntOp.andi
    (andi (cmpi .sge col (broadcastInDim S100000x1 ![] bcast_S_S100000x1 (constantI S_ 32 0#32)))
      (cmpi .sle col (broadcastInDim S100000x1 ![0, 1] bcast_S1x1_S100000x1_0_1
        (broadcastInDim S1x1 ![1] bcast_S1_S1x1_1 (constantI S1 32 99999#32)))))
    (constantI S_ 1 1#1) reducesTo_S100000x1_S100000_d1 h_S_

/-- The rows of `x` the ids name; a row whose id is out of range is zero. -/
def takeRows (x : FVec Ideal S100000x48 .f32) (i : IVec S100000 32) : FVec Ideal S100000x48 .f32 :=
  select (broadcastInDim S100000x48 ![0] bcast_S100000_S100000x48_0 (inRange (idCol i)))
    (Host.gather gather_S100000x48_S100000x1_S100000x48_1_0_n_n_0_1_148 x (idCol i))
    (broadcastInDim S100000x48 ![] bcast_S_S100000x48 (constant (F := Ideal) S_ .f32 0x00000000#32))

/-- A non-negative id is not wrapped. -/
theorem wrapIds_apply (i : IVec S100000 32) (n : Fin 100000) (h : 0 ≤ (i (ix1 n)).toInt) :
    wrapIds i (ix1 n) = i (ix1 n) := by
  have e : wrapIds i (ix1 n)
      = Scalar.select (IntOp.cmpi .slt (i (ix1 n)) 0#32) (IntOp.addi (i (ix1 n)) 100000#32) (i (ix1 n)) := rfl
  have hc : IntOp.cmpi .slt (i (ix1 n)) 0#32 = 0#1 := eq_zero_of_ne_one fun hc => by
    rw [IntOp.cmpi_slt, BitVec.toInt_zero] at hc
    omega
  rw [e, hc, select_zero]

/-- The column of start indices at row `n`. -/
theorem idCol_apply (i : IVec S100000 32) (n : Fin 100000) :
    idCol i (ix2 n (0 : Fin 1)) = wrapIds i (ix1 n) := by
  unfold idCol
  refine broadcastInDim_apply _ _ _ (ix2 n (0 : Fin 1)) (ix1 n) fun a => ?_
  obtain rfl : a = 0 := Subsingleton.elim _ _
  split
  · next h1 => exact absurd h1 (by decide)
  · rfl

/-- An `and` over an axis of length one, from the constant one, is the element. -/
theorem reduce_and_col (x : IVec S100000x1 1) (n : Fin 100000) :
    Host.reduce IntOp.andi x (constantI S_ 1 1#1) reducesTo_S100000x1_S100000_d1 h_S_ (ix1 n)
      = x (ix2 n (0 : Fin 1)) := by
  rw [Host.reduce_eq_fold]
  have hfold : ∀ S : Finset S100000x1.Idx, (∀ i, i ∈ S ↔ i = ix2 n (0 : Fin 1)) →
      S.fold IntOp.andi (constantI S_ 1 1#1 (Shape.Idx.first h_S_)) x = x (ix2 n (0 : Fin 1)) := by
    intro S hS
    obtain rfl : S = {ix2 n (0 : Fin 1)} := Finset.ext fun i => by rw [hS, Finset.mem_singleton]
    rw [Finset.fold_singleton]
    show IntOp.andi (x (ix2 n (0 : Fin 1))) 1#1 = x (ix2 n (0 : Fin 1))
    rcases BitVec.eq_zero_or_eq_one (x (ix2 n (0 : Fin 1))) with h | h <;> rw [h] <;> rfl
  apply hfold
  intro i
  rw [Finset.mem_filter]
  constructor
  · rintro ⟨-, hi⟩
    obtain ⟨a, b, rfl⟩ : ∃ (a : Fin 100000) (b : Fin 1), i = ix2 a b := ⟨i 0, i 1, eq_ix2 i⟩
    have e0 := Shape.ReducesTo.drop_apply_val_of_eq reducesTo_S100000x1_S100000_d1 (ix2 a b) 0 0
    rw [hi] at e0
    have h0 : a = n := Fin.ext e0.symm
    have h1 : b = 0 := Fin.ext (by omega)
    rw [h0, h1]
  · rintro rfl
    refine ⟨Finset.mem_univ _, funext fun b => ?_⟩
    obtain rfl : b = 0 := Subsingleton.elim _ _
    exact Fin.ext (Shape.ReducesTo.drop_apply_val_of_eq reducesTo_S100000x1_S100000_d1 (ix2 n (0 : Fin 1)) 0 0)

/-- The range test at row `n`, as two comparisons of the start index. -/
theorem inRange_apply (col : IVec S100000x1 32) (n : Fin 100000) :
    inRange col (ix1 n) = IntOp.andi (IntOp.cmpi .sge (col (ix2 n (0 : Fin 1))) 0#32)
      (IntOp.cmpi .sle (col (ix2 n (0 : Fin 1))) 99999#32) := by
  unfold inRange
  rw [reduce_and_col]
  rfl

/-- The range test is one exactly on the start indices from 0 to 99999. -/
theorem inRange_eq_one (col : IVec S100000x1 32) (n : Fin 100000) :
    inRange col (ix1 n) = 1#1
      ↔ 0 ≤ (col (ix2 n (0 : Fin 1))).toInt ∧ (col (ix2 n (0 : Fin 1))).toInt ≤ 99999 := by
  rw [inRange_apply, IntOp.andi_eq_one, IntOp.cmpi_sge, IntOp.cmpi_sle, BitVec.toInt_zero,
    show (99999#32 : BitVec 32).toInt = 99999 from by decide]

/-- The range test spread over a row's columns. -/
theorem mask_apply (v : IVec S100000 1) (n : Fin 100000) (q : Fin 48) :
    broadcastInDim S100000x48 ![0] bcast_S100000_S100000x48_0 v (ix2 n q) = v (ix1 n) := by
  refine broadcastInDim_apply _ _ _ (ix2 n q) (ix1 n) fun a => ?_
  obtain rfl : a = 0 := Subsingleton.elim _ _
  split
  · next h1 => exact absurd h1 (by decide)
  · rfl

/-- THE LOOKUP AT `(n, q)`: for a non-negative id `k`, row `k` of the table when `k < 100000`, else zero. -/
theorem takeRows_apply (x : FVec Ideal S100000x48 .f32) (i : IVec S100000 32) (n : Fin 100000) (q : Fin 48)
    (h : 0 ≤ (i (ix1 n)).toInt) :
    takeRows x i (ix2 n q)
      = if hk : (i (ix1 n)).toInt.toNat < 100000 then x (ix2 ⟨(i (ix1 n)).toInt.toNat, hk⟩ q) else 0 := by
  have hcol : idCol i (ix2 n (0 : Fin 1)) = i (ix1 n) := by rw [idCol_apply, wrapIds_apply i n h]
  have e : takeRows x i (ix2 n q)
      = Scalar.select (inRange (idCol i) (ix1 n))
          (Host.gather gather_S100000x48_S100000x1_S100000x48_1_0_n_n_0_1_148 x (idCol i) (ix2 n q))
          (Ideal.ofBits .f32 0x00000000#32) := by
    unfold takeRows
    rw [select_apply, mask_apply]
    rfl
  rw [e, Ideal.ofBits_zero_f32]
  by_cases hk : (i (ix1 n)).toInt.toNat < 100000
  · rw [dif_pos hk]
    have h1 : inRange (idCol i) (ix1 n) = 1#1 := by
      rw [inRange_eq_one, hcol]
      omega
    rw [h1, select_one]
    show Host.gather (Cert.LibGather.rowsDims 100000 100000 48
      gather_S100000x48_S100000x1_S100000x48_1_0_n_n_0_1_148_wf) x (idCol i) (ix2 n q) = _
    rw [Cert.LibGather.gather_rows_apply _ (idCol i) n q (by decide) x]
    refine congrArg x ?_
    refine congrArg (fun r => ix2 r q) (Fin.ext ?_)
    show min (idCol i (ix2 n (0 : Fin 1))).toInt.toNat (100000 - 1) = (i (ix1 n)).toInt.toNat
    rw [hcol]
    omega
  · rw [dif_neg hk]
    have h0 : inRange (idCol i) (ix1 n) = 0#1 := eq_zero_of_ne_one fun h1 => by
      rw [inRange_eq_one, hcol] at h1
      omega
    rw [h0, select_zero]

/-! ## The layout steps before the lookups -/

/-- Column `j` of the neighbour table, as a vector over the points. -/
def tableCol (ids : IVec S100000x9 32) (j : Nat) (hs : S100000x9.Slices ![0, j] S100000x1) : IVec S100000 32 :=
  shapeCast S100000 (extractStridedSlice S100000x1 ![0, j] ids hs) shapeCasts_S100000x1_S100000

theorem tableCol_apply (ids : IVec S100000x9 32) (j : Nat) (hj : j < 9) (hs : S100000x9.Slices ![0, j] S100000x1)
    (n : Fin 100000) : tableCol ids j hs (ix1 n) = ids (ix2 n ⟨j, hj⟩) := by
  unfold tableCol
  refine (shapeCast_apply _ shapeCasts_S100000x1_S100000 (ix1 n) (ix2 n (0 : Fin 1)) ?_).trans ?_
  · rw [Shape.rowMajor_val_two, Shape.rowMajor_val_one]
    show n.val * 1 + 0 = n.val
    omega
  · refine extractStridedSlice_apply _ ids hs (ix2 n (0 : Fin 1)) (ix2 n ⟨j, hj⟩) fun a => ?_
    match a with
    | ⟨0, _⟩ => show n.val = 0 + n.val; omega
    | ⟨1, _⟩ => show j = j + 0; omega

/-- The difference cloud laid out point-major: row `n`, column `3 · batch + coordinate`. -/
def diff48 (g p : FVec Ideal S16x100000x3 .f32) : FVec Ideal S100000x48 .f32 :=
  shapeCast S100000x48
    (transpose S100000x16x3 [1, 0, 2] (subf g p) transposes_S16x100000x3_S100000x16x3_1_0_2)
    shapeCasts_S100000x16x3_S100000x48

theorem diff48_apply (g p : FVec Ideal S16x100000x3 .f32) (n : Fin 100000) (q : Fin 48) :
    diff48 g p (ix2 n q)
      = g (ix3 ⟨q.val / 3, by omega⟩ n ⟨q.val % 3, by omega⟩)
        - p (ix3 ⟨q.val / 3, by omega⟩ n ⟨q.val % 3, by omega⟩) := by
  unfold diff48
  refine (shapeCast_apply _ shapeCasts_S100000x16x3_S100000x48 (ix2 n q)
    (ix3 n (⟨q.val / 3, by omega⟩ : Fin 16) (⟨q.val % 3, by omega⟩ : Fin 3)) ?_).trans ?_
  · rw [Shape.rowMajor_val_three, Shape.rowMajor_val_two]
    show (n.val * 16 + q.val / 3) * 3 + q.val % 3 = n.val * 48 + q.val
    omega
  · refine (transpose_apply _ (subf g p) transposes_S16x100000x3_S100000x16x3_1_0_2
      (ix3 n (⟨q.val / 3, by omega⟩ : Fin 16) (⟨q.val % 3, by omega⟩ : Fin 3))
      (ix3 (⟨q.val / 3, by omega⟩ : Fin 16) n (⟨q.val % 3, by omega⟩ : Fin 3)) fun b => ?_).trans (subf_apply _ _ _)
    match b with
    | ⟨0, _⟩ => rfl
    | ⟨1, _⟩ => rfl
    | ⟨2, _⟩ => rfl

/-- The degrees spread over a row's columns. -/
def degs48 (d : FVec Ideal S100000 .f32) : FVec Ideal S100000x48 .f32 :=
  broadcastInDim S100000x48 ![0, 1] bcast_S100000x1_S100000x48_0_1
    (broadcastInDim S100000x1 ![0] bcast_S100000_S100000x1_0 d)

theorem degs48_apply (d : FVec Ideal S100000 .f32) (n : Fin 100000) (q : Fin 48) :
    degs48 d (ix2 n q) = d (ix1 n) := by
  unfold degs48
  refine (broadcastInDim_apply _ _ _ (ix2 n q) (ix2 n (0 : Fin 1)) fun a => ?_).trans
    (broadcastInDim_apply _ _ _ (ix2 n (0 : Fin 1)) (ix1 n) fun a => ?_)
  · match a with
    | ⟨0, _⟩ =>
      split
      · next h1 => change (100000 : ℕ) = 1 at h1; omega
      · rfl
    | ⟨1, _⟩ =>
      split
      · rfl
      · next h1 => exact absurd rfl h1
  · obtain rfl : a = 0 := Subsingleton.elim _ _
    split
    · next h1 => exact absurd h1 (by decide)
    · rfl

/-- A looked-up row of the difference cloud is the cloud's point in that slot (zero from 100000 on). -/
theorem take_point (g p : FVec Ideal S16x100000x3 .f32) (ids : IVec S100000x9 32) (j : Nat) (hj : j < 9)
    (hs : S100000x9.Slices ![0, j] S100000x1) (n : Fin 100000) (q : Fin 48)
    (hpos : 0 ≤ (ids (ix2 n ⟨j, hj⟩)).toInt) :
    takeRows (diff48 g p) (tableCol ids j hs) (ix2 n q)
      = point (fun i => g i - p i) (slot ids n ⟨j, hj⟩) ⟨q.val / 3, by omega⟩ ⟨q.val % 3, by omega⟩ := by
  have hcol : tableCol ids j hs (ix1 n) = ids (ix2 n ⟨j, hj⟩) := tableCol_apply ids j hj hs n
  rw [takeRows_apply _ _ n q (by rw [hcol]; exact hpos)]
  unfold point slot
  rw [hcol]
  by_cases hk : (ids (ix2 n ⟨j, hj⟩)).toInt.toNat < 100000
  · rw [dif_pos hk, dif_pos hk, diff48_apply]
  · rw [dif_neg hk, dif_neg hk]

variable (m : (ℓ : Loc nD τ sig) → Buf (Elt Ideal) ℓ)

/-- The four arguments as core `c` finds them. -/
abbrev gt (c : Dev nD) : FVec Ideal S16x100000x3 .f32 := m ((c : Thread nD τ).loc main_arg0)
abbrev pr (c : Dev nD) : FVec Ideal S16x100000x3 .f32 := m ((c : Thread nD τ).loc main_arg1)
abbrev ids (c : Dev nD) : IVec S100000x9 32 := m ((c : Thread nD τ).loc main_arg2)
abbrev deg (c : Dev nD) : FVec Ideal S100000 .f32 := m ((c : Thread nD τ).loc main_arg3)

/-- The region's first operand: the slot-0 rows of the difference cloud, scaled by the degrees. -/
abbrev selfScaled (c : Dev nD) : FVec Ideal S100000x48 .f32 := V m c main_v39
/-- The region's second operand: the rows of slots 1 to 8, added. -/
abbrev nbSum (c : Dev nD) : FVec Ideal S100000x48 .f32 := V m c main_v36

/-- The difference cloud's point in slot `j` of point `n`, at column `q`'s batch and coordinate. -/
abbrev dpoint (c : Dev nD) (n : Fin 100000) (q : Fin 48) (j : Fin 9) : EReal :=
  point (fun i => gt m c i - pr m c i) (slot (ids m c) n j) ⟨q.val / 3, by omega⟩ ⟨q.val % 3, by omega⟩

/-! ## The two staged arrays as the host's operations compose -/

/-- The lookup of slot `j`'s rows in the difference cloud. -/
abbrev rowsOf (c : Dev nD) (j : Nat) (hs : S100000x9.Slices ![0, j] S100000x1) : FVec Ideal S100000x48 .f32 :=
  takeRows (diff48 (gt m c) (pr m c)) (tableCol (ids m c) j hs)

set_option maxHeartbeats 4000000 in
set_option maxRecDepth 16384 in
/-- The first staged array: the slot-0 rows times the degrees. -/
theorem selfScaled_eq (c : Dev nD) :
    (selfScaled m c : S100000x48.Idx → EReal)
      = mulf (rowsOf m c 0 slices_S100000x9_S100000x1_0_0) (degs48 (deg m c)) := by
  dsimp only [selfScaled, Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, List.flatten_cons, List.flatten_nil, List.append_nil, List.cons_append, List.nil_append]
  after_results_simp
  simp only [StableHlo.TRef.ofBuf, StableHlo.TRef.toBuf, cast_cast, cast_eq]
  rfl

set_option maxHeartbeats 16000000 in
set_option maxRecDepth 16384 in
/-- The second staged array: the rows of slots 1 to 8, added left to right. -/
theorem nbSum_eq (c : Dev nD) :
    (nbSum m c : S100000x48.Idx → EReal)
      = addf (addf (addf (addf (addf (addf (addf
          (rowsOf m c 1 slices_S100000x9_S100000x1_0_1) (rowsOf m c 2 slices_S100000x9_S100000x1_0_2))
          (rowsOf m c 3 slices_S100000x9_S100000x1_0_3)) (rowsOf m c 4 slices_S100000x9_S100000x1_0_4))
          (rowsOf m c 5 slices_S100000x9_S100000x1_0_5)) (rowsOf m c 6 slices_S100000x9_S100000x1_0_6))
          (rowsOf m c 7 slices_S100000x9_S100000x1_0_7)) (rowsOf m c 8 slices_S100000x9_S100000x1_0_8) := by
  dsimp only [nbSum, Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, List.flatten_cons, List.flatten_nil, List.append_nil, List.cons_append, List.nil_append]
  after_results_simp
  simp only [StableHlo.TRef.ofBuf, StableHlo.TRef.toBuf, cast_cast, cast_eq]
  rfl

/-- A looked-up row of slot `j` at `(n, q)` is the difference cloud's point in that slot. -/
theorem rowsOf_apply (c : Dev nD) (hpos : ∀ i, 0 ≤ (ids m c i).toInt) (j : Nat) (hj : j < 9)
    (hs : S100000x9.Slices ![0, j] S100000x1) (n : Fin 100000) (q : Fin 48) :
    rowsOf m c j hs (ix2 n q) = dpoint m c n q ⟨j, hj⟩ :=
  take_point (gt m c) (pr m c) (ids m c) j hj hs n q (hpos _)

theorem selfScaled_at (c : Dev nD) (hpos : ∀ i, 0 ≤ (ids m c i).toInt) (n : Fin 100000) (q : Fin 48) :
    selfScaled m c (ix2 n q) = dpoint m c n q 0 * deg m c (ix1 n) := by
  rw [selfScaled_eq m c, mulf_apply, degs48_apply, rowsOf_apply m c hpos 0 (by omega)]
  rfl

theorem nbSum_at (c : Dev nD) (hpos : ∀ i, 0 ≤ (ids m c i).toInt) (n : Fin 100000) (q : Fin 48) :
    nbSum m c (ix2 n q) = dpoint m c n q 1 + dpoint m c n q 2 + dpoint m c n q 3 + dpoint m c n q 4
      + dpoint m c n q 5 + dpoint m c n q 6 + dpoint m c n q 7 + dpoint m c n q 8 := by
  rw [nbSum_eq m c]
  simp only [addf_apply]
  rw [rowsOf_apply m c hpos 1 (by omega), rowsOf_apply m c hpos 2 (by omega), rowsOf_apply m c hpos 3 (by omega),
    rowsOf_apply m c hpos 4 (by omega), rowsOf_apply m c hpos 5 (by omega), rowsOf_apply m c hpos 6 (by omega),
    rowsOf_apply m c hpos 7 (by omega), rowsOf_apply m c hpos 8 (by omega)]
  rfl

end Cert.KerHost

end
-- ==== Proof.KerAcc.lean ====
/-
  The kernel's run, read as values: the running total across the grid, the two-element result array, the host's
  last additions.

  Core `k` (k = 0, 1) visits grid points 10k … 10k + 9 in order. Each point adds its tile sum to a running total
  that the first of the ten starts from zero, so after the last of the ten the total is the sum of the ten tile sums;
  that point writes the total times 1/4800000 into element `k` of the result array. The host then adds the two
  elements. A point's tile is rows 5000 t … 5000 t + 4999 of the two staged arrays, whose difference at (row, column)
  is the Laplacian of the difference cloud there; so the program's result is the tiled form of the loss.
-/
import proofs.«416947_j29197187678935_3_alg».proof.Proof.Gen.KernelIdeal.Frame
import proofs.«416947_j29197187678935_3_alg».proof.Proof.Spec
import proofs.«416947_j29197187678935_3_alg».proof.Proof.KerBody
import proofs.«416947_j29197187678935_3_alg».proof.Proof.KerHost
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.ShloMosaic.ValueIdx Idealize.SL.Sem
open Idealize.ShloMosaic.Pipeline (Dat)

namespace Cert.KerAcc

open Cert.KernelIdeal Cert.KernelIdeal.Gen Cert.MeshLoss Cert.KerBody

/-! ## A total restarted every ten steps -/

/-- The running total of `f` that restarts from zero at every multiple of ten. -/
def run10 (f : ℕ → EReal) : ℕ → EReal
  | 0 => 0 + f 0
  | n + 1 => if (n + 1) % 10 = 0 then 0 + f (n + 1) else run10 f n + f (n + 1)

/-- It is the sum of `f` from the last multiple of ten up to `n`. -/
theorem run10_eq (f : ℕ → EReal) : ∀ n, run10 f n = ∑ s ∈ Finset.range (n % 10 + 1), f (n - n % 10 + s)
  | 0 => by simp [run10]
  | n + 1 => by
    rw [run10]
    split_ifs with h
    · rw [h]; simp
    · rw [run10_eq f n]
      have e1 : (n + 1) % 10 = n % 10 + 1 := by omega
      have e2 : n + 1 - (n % 10 + 1) = n - n % 10 := by omega
      rw [e1, e2, Finset.sum_range_succ (fun s => f (n - n % 10 + s)) (n % 10 + 1)]
      refine congrArg (_ + f ·) ?_
      omega

/-- After the last of ten steps: the ten terms. -/
theorem run10_last (f : ℕ → EReal) (k : ℕ) : run10 f (10 * k + 9) = ∑ s : Fin 10, f (10 * k + s.val) := by
  rw [run10_eq, show (10 * k + 9) % 10 + 1 = 10 from by omega, show 10 * k + 9 - (10 * k + 9) % 10 = 10 * k from by omega]
  exact Finset.sum_range (fun s => f (10 * k + s))

/-! ## The running total across the grid -/

variable (m : (ℓ : Loc nD τ sig) → Buf (Elt Ideal) ℓ) (ρ : Dev nD → PrngReg)

/-- The two operands' blocks at a point, at their literal types. -/
abbrev blkA (c : Dev nD) (t : Fin cfg0.N) : Vec Ideal S5000x48 .f32 := iblk m c 0 t
abbrev blkB (c : Dev nD) (t : Fin cfg0.N) : Vec Ideal S5000x48 .f32 := iblk m c 1 t

/-- The tile sum at a point: the absolute differences of the two blocks, added. -/
def tile (c : Dev nD) (t : Fin cfg0.N) : EReal :=
  ∑ r : Fin 5000, ∑ q : Fin 48, absE (blkA m c t (ix2 r q) - blkB m c t (ix2 r q))

/-- The same by the point's number (zero past the grid). -/
def tileN (c : Dev nD) (n : ℕ) : EReal := if h : n < cfg0.N then tile m c ⟨n, h⟩ else 0

theorem tileN_of_lt (c : Dev nD) (n : ℕ) (h : n < cfg0.N) : tileN m c n = tile m c ⟨n, h⟩ := dif_pos h

/-- THE SCRATCH AFTER POINT `n` holds the total, restarted every ten points, of the tile sums. -/
theorem scratch_eq (c : Dev nD) : ∀ (n : ℕ) (h : n < cfg0.N), (outsAt0 m c n h).2 o = run10 (tileN m c) n
  | 0, h => by
    rw [outsAt0_A m c ⟨0, h⟩ rfl (by dsimp only; omega)]
    dsimp only
    refine (congrFun (scratch_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) _ _ (blkA m c ⟨0, h⟩) (blkB m c ⟨0, h⟩)) o).trans ?_
    rw [pay2_at, pay1_at, run10, tileN_of_lt m c 0 h]
    rfl
  | n + 1, h => by
    have hN : cfg0.N = 20 := N_0
    by_cases h0 : (n + 1) % 10 = 0
    · rw [outsAt0_A m c ⟨n + 1, h⟩ h0 (by dsimp only; omega)]
      dsimp only
      refine (congrFun (scratch_A (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (blkA m c ⟨n + 1, h⟩) (blkB m c ⟨n + 1, h⟩)) o).trans ?_
      rw [pay2_at, pay1_at, run10, if_pos h0, tileN_of_lt m c (n + 1) h]
      rfl
    · have ih := scratch_eq c n (Nat.lt_of_succ_lt h)
      by_cases h1 : (n + 1) % 10 = 9
      · rw [outsAt0_C m c ⟨n + 1, h⟩ h0 h1]
        dsimp only
        refine (congrFun (scratch_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (blkA m c ⟨n + 1, h⟩) (blkB m c ⟨n + 1, h⟩) (outsAt0 m c n (Nat.lt_of_succ_lt h)).2) o).trans ?_
        rw [pay2_at, ih, run10, if_neg h0, tileN_of_lt m c (n + 1) h]
        rfl
      · rw [outsAt0_B m c ⟨n + 1, h⟩ h0 h1]
        dsimp only
        refine (congrFun (scratch_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (blkA m c ⟨n + 1, h⟩) (blkB m c ⟨n + 1, h⟩) (outsAt0 m c n (Nat.lt_of_succ_lt h)).2) o).trans ?_
        rw [pay2_at, ih, run10, if_neg h0, tileN_of_lt m c (n + 1) h]
        rfl

/-! ## A point's blocks are rows of the staged arrays -/

open Cert.KerHost

/-- The printed index maps, decided over the grid: point `t` stages row block `t` of both operands and writes
    element `t / 10` of the result. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 10 ∧ win0_2.index t (1 : Fin 3) = 0 ∧ win0_2.index t (2 : Fin 3) = 0 :=
  (by decide +kernel : ∀ t : Fin grid0.N, _)

theorem blkA_apply (c : Dev nD) (t : Fin cfg0.N) (r : Fin 5000) (q : Fin 48) (hn : t.val * 5000 + r.val < 100000) :
    blkA m c t (ix2 r q) = selfScaled m c (ix2 ⟨t.val * 5000 + r.val, hn⟩ q) := by
  obtain ⟨e0, e1, -⟩ := idx_facts t
  show iblk m c 0 t (ix2 r q) = _
  unfold iblk
  rw [View.read_apply]
  show V m c main_v39 _ = V m c main_v39 _
  congr 1
  funext a
  apply Fin.ext
  match a with
  | ⟨0, _⟩ => show win0_0.index t (0 : Fin 2) * 5000 + 1 * r.val = t.val * 5000 + r.val; omega
  | ⟨1, _⟩ => show win0_0.index t (1 : Fin 2) * 48 + 1 * q.val = q.val; omega

theorem blkB_apply (c : Dev nD) (t : Fin cfg0.N) (r : Fin 5000) (q : Fin 48) (hn : t.val * 5000 + r.val < 100000) :
    blkB m c t (ix2 r q) = nbSum m c (ix2 ⟨t.val * 5000 + r.val, hn⟩ q) := by
  obtain ⟨-, -, e0, e1, -⟩ := idx_facts t
  show iblk m c 1 t (ix2 r q) = _
  unfold iblk
  rw [View.read_apply]
  show V m c main_v36 _ = V m c main_v36 _
  congr 1
  funext a
  apply Fin.ext
  match a with
  | ⟨0, _⟩ => show win0_1.index t (0 : Fin 2) * 5000 + 1 * r.val = t.val * 5000 + r.val; omega
  | ⟨1, _⟩ => show win0_1.index t (1 : Fin 2) * 48 + 1 * q.val = q.val; omega

/-- THE TILE SUM IN THE LOSS'S WORDS: the entries `|lap (gt − pr)|` of the point's 5000 rows, added. -/
theorem tile_eq (c : Dev nD) (hpos : ∀ i, 0 ≤ (ids m c i).toInt) (t : Fin cfg0.N) :
    tile m c t = ∑ r : Fin 5000, ∑ q : Fin 48,
      entry (fun i => gt m c i - pr m c i) (ids m c) (deg m c) (t.val * 5000 + r.val) q.val := by
  have hN : cfg0.N = 20 := N_0
  have ht : t.val < 20 := lt_of_lt_of_eq t.isLt hN
  unfold tile
  refine Finset.sum_congr rfl fun r _ => Finset.sum_congr rfl fun q _ => ?_
  have hn : t.val * 5000 + r.val < 100000 := by have := r.isLt; omega
  rw [blkA_apply m c t r q hn, blkB_apply m c t r q hn, selfScaled_at m c hpos, nbSum_at m c hpos,
    entry_of_lt _ _ _ _ _ hn q.isLt, lap_eight]

/-! ## The result array -/

/-- The total core `k` ends with: the ten tile sums of its points. -/
def half (c : Dev nD) (k : ℕ) : EReal := run10 (tileN m c) (10 * k + 9)

/-- Element `k` of the result array is core `k`'s total times the reciprocal of the entry count. -/
def resultFn (c : Dev nD) : S2x1x1.Idx → EReal := fun j => half m c (j 0).val * invCount

abbrev result (c : Dev nD) : Buf (Elt Ideal) ((c : Thread nD τ).loc main_v40) := resultFn m c

/-- At the last of a core's ten points the output's staging buffer holds the total times the reciprocal. -/
theorem out_eq (c : Dev nD) (t : Fin cfg0.N) (h0 : ¬t.val % 10 = 0) (h9 : t.val % 10 = 9) :
    (outsAt0 m c t.val t.isLt).1 o = run10 (tileN m c) t.val * invCount := by
  have hs := scratch_eq m c t.val t.isLt
  rw [outsAt0_C m c t h0 h9] at hs ⊢
  dsimp only at hs ⊢
  refine (congrFun (out_C (F := Ideal) c (grid0.coords t) (ms0_0 t) (hs0_0 t) (ms0_1 t) (hs0_1 t) (ms0_2 t) (hs0_2 t) scM0_0 (Memref.isWhole_whole _) _ _ (blkA m c t) (blkB m c t) (outsAt0 m c (t.val - 1) (Nat.lt_of_le_of_lt (Nat.sub_le _ _) t.isLt)).2) o).trans ?_
  rw [pay3_at]
  refine congrArg (· * invCount) ?_
  exact (congrFun (scratch_C (F := Ideal) c (grid0.coords t) (ms0_0 t) (hs0_0 t) (ms0_1 t) (hs0_1 t) (ms0_2 t) (hs0_2 t) scM0_0 (Memref.isWhole_whole _) _ _ (blkA m c t) (blkB m c t) (outsAt0 m c (t.val - 1) (Nat.lt_of_le_of_lt (Nat.sub_le _ _) t.isLt)).2) o).symm.trans hs

/-- WHAT A WRITING POINT WRITES BACK is its element of the result array. -/
theorem flushed_eq (c : Dev nD) (t : Fin cfg0.N) (hf : (cfg0.win 2).flush t = true) :
    (dats m 0 c).flushed 2 t = ((cfg0.win 2).blk t).view.read (Elt Ideal) (result m c) := by
  have h9 : t.val % 10 = 9 := (flush0_2 t).mp hf
  have h0 : ¬t.val % 10 = 0 := by omega
  obtain ⟨-, -, -, -, e0, e1, e2⟩ := idx_facts t
  show (cfg0.win 2).cut (grid0.coords t) ((dats m 0 c).after 2 t) = _
  rw [after0_2]
  funext j
  have hj : j = o := funext fun a => Fin.ext (by
    match a with
    | ⟨0, _⟩ => have h : (j 0).val < 1 := (j 0).isLt; show (j 0).val = 0; omega
    | ⟨1, _⟩ => have h : (j 1).val < 1 := (j 1).isLt; show (j 1).val = 0; omega
    | ⟨2, _⟩ => have h : (j 2).val < 1 := (j 2).isLt; show (j 2).val = 0; omega)
  rw [hj]
  show (outsAt0 m c t.val t.isLt).1 o = resultFn m c (((cfg0.win 2).blk t).view.emb o)
  rw [out_eq m c t h0 h9]
  unfold resultFn half
  have hv : ((((cfg0.win 2).blk t).view.emb o) 0).val = t.val / 10 := by
    show win0_2.index t (0 : Fin 3) * 1 + 1 * 0 = t.val / 10
    omega
  rw [hv, show 10 * (t.val / 10) + 9 = t.val from by omega]

/-- So the result array ends holding both cores' elements: points 9 and 19 write the two of them. -/
theorem final (c : Dev nD) : (dats m 0 c).arrAt 2 cfg0.N = result m c :=
  (dats m 0 c).arrAt_eq_of_cover 2 (result m c) (flushed_eq m c) fun i => by
    have hN : cfg0.N = 20 := N_0
    have hi0 : (i 0 : ℕ) < 2 := (i 0).isLt
    have hi1 : (i 1 : ℕ) < 1 := (i 1).isLt
    have hi2 : (i 2 : ℕ) < 1 := (i 2).isLt
    have hlt : 10 * (i 0 : ℕ) + 9 < cfg0.N := by omega
    obtain ⟨-, -, -, -, e0, e1, e2⟩ := idx_facts ⟨10 * (i 0 : ℕ) + 9, hlt⟩
    have e0' : win0_2.index ⟨10 * (i 0 : ℕ) + 9, hlt⟩ (0 : Fin 3) = (i 0 : ℕ) := by
      rw [e0]; show (10 * (i 0 : ℕ) + 9) / 10 = _; omega
    refine ⟨⟨10 * (i 0 : ℕ) + 9, hlt⟩, (flush0_2 _).mpr (by show (10 * (i 0 : ℕ) + 9) % 10 = 9; omega), ?_⟩
    show i ∈ ((View.whole main_v40).slice (win0_2.rect ⟨10 * (i 0 : ℕ) + 9, hlt⟩)).set
    rw [View.set_slice_whole, Rect.mem_set_unit]
    intro a
    match a with
    | ⟨0, _⟩ =>
      show win0_2.index ⟨10 * (i 0 : ℕ) + 9, hlt⟩ (0 : Fin 3) * 1 ≤ (i 0 : ℕ) ∧ (i 0 : ℕ) < win0_2.index ⟨10 * (i 0 : ℕ) + 9, hlt⟩ (0 : Fin 3) * 1 + 1
      omega
    | ⟨1, _⟩ =>
      show win0_2.index ⟨10 * (i 0 : ℕ) + 9, hlt⟩ (1 : Fin 3) * 1 ≤ (i 1 : ℕ) ∧ (i 1 : ℕ) < win0_2.index ⟨10 * (i 0 : ℕ) + 9, hlt⟩ (1 : Fin 3) * 1 + 1
      omega
    | ⟨2, _⟩ =>
      show win0_2.index ⟨10 * (i 0 : ℕ) + 9, hlt⟩ (2 : Fin 3) * 1 ≤ (i 2 : ℕ) ∧ (i 2 : ℕ) < win0_2.index ⟨10 * (i 0 : ℕ) + 9, hlt⟩ (2 : Fin 3) * 1 + 1
      omega

end Cert.KerAcc

end
-- ==== Proof.KerRun.lean ====
/-
  The kernel program's result: after the pipelined call the host adds the two elements of the result array, and the
  sum is the loss.
-/
import proofs.«416947_j29197187678935_3_alg».proof.Proof.KerAcc

noncomputable section

open scoped BigOperators
open Idealize.ShloMosaic Idealize.ShloMosaic.TcCoe Idealize.ShloMosaic.ValueIdx Idealize.SL.Sem
open Idealize.ShloMosaic.Pipeline (Dat)

namespace Cert.KerRun

open Cert.KernelIdeal Cert.KernelIdeal.Gen Cert.MeshLoss Cert.KerBody Cert.KerHost Cert.KerAcc

variable (m : (ℓ : Loc nD τ sig) → Buf (Elt Ideal) ℓ) (ρ : Dev nD → PrngReg)

/-! ## The host's last lines: the two elements added -/

/-- Element 0 and element 1 of a two-element array, each sliced out and reshaped to a scalar, added. -/
theorem two_elements (X : S2x1x1.Idx → EReal) (i : S_.Idx) :
    (shapeCast S_ (extractStridedSlice S1x1x1 ![0, 0, 0] X slices_S2x1x1_S1x1x1_0_0_0) shapeCasts_S1x1x1_S_ i : EReal)
      + shapeCast S_ (extractStridedSlice S1x1x1 ![1, 0, 0] X slices_S2x1x1_S1x1x1_1_0_0) shapeCasts_S1x1x1_S_ i
    = X (ix3 (0 : Fin 2) (0 : Fin 1) (0 : Fin 1)) + X (ix3 (1 : Fin 2) (0 : Fin 1) (0 : Fin 1)) := by
  have hrm : (S1x1x1.rowMajor o).val = (S_.rowMajor i).val := by
    rw [Shape.rowMajor_val_three]
    have h : (S_.rowMajor i).val < 1 := (S_.rowMajor i).isLt
    show (0 * 1 + 0) * 1 + 0 = _
    omega
  rw [shapeCast_apply _ shapeCasts_S1x1x1_S_ i o hrm, shapeCast_apply _ shapeCasts_S1x1x1_S_ i o hrm,
    extractStridedSlice_apply ![0, 0, 0] X slices_S2x1x1_S1x1x1_0_0_0 o (ix3 (0 : Fin 2) (0 : Fin 1) (0 : Fin 1))
      (fun a => match a with | ⟨0, _⟩ => rfl | ⟨1, _⟩ => rfl | ⟨2, _⟩ => rfl),
    extractStridedSlice_apply ![1, 0, 0] X slices_S2x1x1_S1x1x1_1_0_0 o (ix3 (1 : Fin 2) (0 : Fin 1) (0 : Fin 1))
      (fun a => match a with | ⟨0, _⟩ => rfl | ⟨1, _⟩ => rfl | ⟨2, _⟩ => rfl)]

/-- The result array as the host's last lines find it. -/
theorem arr_eq (c : Dev nD) :
    (Pipeline.withArrays (cfgs 0).spec c (V0 m c) (fun w => (dats m 0 c).arrAt w (cfgs 0).N)
      (Proc.devRef .tc main_v40) : S2x1x1.Idx → EReal) = resultFn m c :=
  (Pipeline.withArrays_arr spec0 launch0.win.arr_inj c _ _ 2).trans (final m c)

/-- THE PROGRAM'S RESULT is the sum of the two cores' scaled totals. -/
theorem tail_eq (c : Dev nD) :
    Pipeline.afterTail₀ cfgs (dats m) 0 (V0 m) [hostOps1] c main_v45 = (fun _ => half m c 0 * invCount + half m c 1 * invCount) := by
  unfold Pipeline.afterTail₀
  show StableHlo.after hostOps1 _ (Proc.devRef .tc main_v45) = _
  after_results
  refine funext fun i => (two_elements _ i).trans ?_
  rw [arr_eq m c]
  rfl

/-! ## The program's result is the loss -/

/-- The two cores' scaled totals add up to the loss, on real clouds and degrees and a table with no negative entry. -/
theorem total_eq_loss (c : Dev nD) (hgt : ∀ i, ∃ r : ℝ, gt m c i = r) (hpr : ∀ i, ∃ r : ℝ, pr m c i = r)
    (hdeg : ∀ i, ∃ r : ℝ, deg m c i = r) (hpos : ∀ i, 0 ≤ (ids m c i).toInt) :
    half m c 0 * invCount + half m c 1 * invCount = loss (gt m c) (pr m c) (ids m c) (deg m c) := by
  have hN : cfg0.N = 20 := N_0
  have hA : ∀ s : Fin 10, tileN m c (10 * 0 + s.val) = ∑ r : Fin 5000, ∑ q : Fin 48,
      entry (fun i => gt m c i - pr m c i) (ids m c) (deg m c) (s.val * 5000 + r.val) q.val := fun s => by
    have hs : 10 * 0 + s.val < cfg0.N := by have := s.isLt; omega
    rw [tileN_of_lt m c _ hs, tile_eq m c hpos]
    simp only [Nat.mul_zero, Nat.zero_add]
  have hB : ∀ s : Fin 10, tileN m c (10 * 1 + s.val) = ∑ r : Fin 5000, ∑ q : Fin 48,
      entry (fun i => gt m c i - pr m c i) (ids m c) (deg m c) ((10 + s.val) * 5000 + r.val) q.val := fun s => by
    have hs : 10 * 1 + s.val < cfg0.N := by have := s.isLt; omega
    rw [tileN_of_lt m c _ hs, tile_eq m c hpos]
  unfold half
  rw [run10_last, run10_last, Finset.sum_congr rfl (fun s _ => hA s), Finset.sum_congr rfl (fun s _ => hB s)]
  exact tiles_eq_loss (gt m c) (pr m c) (ids m c) (deg m c) hgt hpr hdeg

/-- The result buffer is none of the pipeline's arrays. -/
theorem v45_rest : main_v45 ∈ Pipeline.restRefs sig (cfgs 0).spec :=
  Pipeline.mem_restRefs_of main_v45 (by decide) (by decide)

/-- What the host's last lines leave in the result buffer is the loss. -/
theorem tail_loss (c : Dev nD) (hgt : ∀ i, ∃ r : ℝ, gt m c i = r) (hpr : ∀ i, ∃ r : ℝ, pr m c i = r)
    (hdeg : ∀ i, ∃ r : ℝ, deg m c i = r) (hpos : ∀ i, 0 ≤ (ids m c i).toInt) :
    Pipeline.afterTail₀ cfgs (dats m) 0 (V0 m) [hostOps1] c main_v45
      = (fun _ => loss (gt m c) (pr m c) (ids m c) (deg m c)) :=
  (tail_eq m c).trans (funext fun _ => total_eq_loss m c hgt hpr hdeg hpos)

/-- THE RUN, READ: every weakly fair execution of the kernel program ends with its result at the loss of its four
    arguments, the arguments unchanged. -/
theorem run (hgt : ∀ c i, ∃ r : ℝ, gt m c i = r) (hpr : ∀ c i, ∃ r : ℝ, pr m c i = r)
    (hdeg : ∀ c i, ∃ r : ℝ, deg m c i = r) (hpos : ∀ c i, 0 ≤ (ids m c i).toInt) :
    θ_run defs (onTc (τ := τ) (main (F := Ideal))) ⟨m, fun _ => 0, ρ⟩ fun r => ∀ c : Dev nD,
      r.2.mem ((c : Thread nD τ).loc main_v45) = (fun _ => loss (gt m c) (pr m c) (ids m c) (deg m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v45 v45_rest).trans (tail_loss m c (hgt c) (hpr c) (hdeg c) (hpos c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KerRun

end
-- ==== Proof.lean ====
/-
  The mesh-Laplacian L1 loss: the kernel program against its reference, over the extended reals.

  Both programs take two point clouds `gt`, `pr` (16 batches × 100000 points × 3 coordinates), a table of nine
  neighbour slots per point (slot 0 the point itself; an id from 100000 on names the zero padding point) and a degree
  per point, and return one number: the mean over all 4800000 entries of `|lap gt − lap pr|`, where
  `lap P` at a point is `degree · P[slot 0] − Σ_{j = 1..8} P[slot j]`.

  The reference pads each cloud with a zero point, looks the nine slots up along the point axis, forms the two
  Laplacians, subtracts, takes absolute values, sums everything and divides by 4800000.
  The kernel program uses that the Laplacian is LINEAR in the cloud: it forms the difference `gt − pr` once, lays it
  out with one row of 48 columns per point, looks its rows up slot by slot (reading zero for an id from 100000 on),
  and leaves two arrays, `degree · row[slot 0]` and `Σ_{j = 1..8} row[slot j]`, whose difference is `lap (gt − pr)`.
  Its one pipelined call then sums `|·|` of that difference tile by tile (5000 points at a time), ten tiles to each of
  two cores, each core keeping a running total and writing it, times the reciprocal 1/4800000, when its ten tiles are
  done; the host adds the two numbers.

  The two agree where the inputs are real numbers, because then `lap (gt − pr) = lap gt − lap pr`, a finite sum of
  non-negative terms does not depend on its grouping, and scaling by 1/4800000 distributes over the two cores' totals;
  and where no neighbour id is negative, because a negative id is wrapped by 100000 in one program and by 100001 in the
  other and then names different points. Both are the precondition. The reciprocal is the named constant of the
  idealized kernel, the rational 1/4800000, and the reference's divisor is the real number 4800000 exactly.

  The frames of the two kernel programs are the generated ones; the reference's is its generated run with the result
  dropped.
-/
import proofs.«416947_j29197187678935_3_alg».proof.Defs
import proofs.«416947_j29197187678935_3_alg».proof.Proof.Gen.Kernel
import proofs.«416947_j29197187678935_3_alg».proof.Proof.Gen.Kernel.Skeleton
import proofs.«416947_j29197187678935_3_alg».proof.Proof.Gen.Kernel.Launch
import proofs.«416947_j29197187678935_3_alg».proof.Proof.Gen.Kernel.Points
import proofs.«416947_j29197187678935_3_alg».proof.Proof.Gen.Kernel.Frame
import proofs.«416947_j29197187678935_3_alg».proof.Proof.Gen.KernelIdeal
import proofs.«416947_j29197187678935_3_alg».proof.Proof.Gen.KernelIdeal.Skeleton
import proofs.«416947_j29197187678935_3_alg».proof.Proof.Gen.KernelIdeal.Launch
import proofs.«416947_j29197187678935_3_alg».proof.Proof.Gen.KernelIdeal.Points
import proofs.«416947_j29197187678935_3_alg».proof.Proof.Gen.KernelIdeal.Frame
import proofs.«416947_j29197187678935_3_alg».proof.Proof.Gen.ReferenceIdeal
import proofs.«416947_j29197187678935_3_alg».proof.Proof.Gen.ReferenceIdeal.Run
import proofs.«416947_j29197187678935_3_alg».proof.Proof.Gen.ReferenceIdeal.Read
import proofs.«416947_j29197187678935_3_alg».proof.Proof.Gen.Pre_finite_inputs
import proofs.«416947_j29197187678935_3_alg».proof.Proof.PreRead
import proofs.«416947_j29197187678935_3_alg».proof.Proof.RefLoss
import proofs.«416947_j29197187678935_3_alg».proof.Proof.KerRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the kernel's reciprocal of the entry count is read as the rational 1/4800000. -/
theorem preserves : Cert.preserves_Kernel_KernelIdeal :=
  IdealRules.named_const.statement Cert.KernelIdeal.κ "inv_4800000" .f32 0x345FB23B#32 ((1 / 4800000 : ℝ) : EReal) rfl

/-- Both programs end at the loss of the four arguments: the kernel's two scaled totals (its run read back), and the
    reference's last stage. -/
theorem algebraic : Cert.algebraic_KernelIdeal_ReferenceIdeal := by
  intro m ρ m' ρ' hpre hagree
  have hP := fun c => Cert.PreRead.of_pre _ _ _ _ (hpre c)
  refine ⟨fun c => (fun _ => Cert.MeshLoss.loss (Cert.KerHost.gt m c) (Cert.KerHost.pr m c) (Cert.KerHost.ids m c) (Cert.KerHost.deg m c)),
    Cert.KerRun.run m ρ (fun c => (hP c).1) (fun c => (hP c).2.1) (fun c => (hP c).2.2.1) (fun c => (hP c).2.2.2), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.ReferenceIdeal.Read.val_main_v37_eq _ _ _ _).trans (funext fun i => ?_)
  exact Cert.RefLoss.ref_eq_loss _ _ _ _ (hP c).2.2.2 i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
